-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 104
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x1, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x1, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000, .f32⟩
  | .hbm, ⟨57, _⟩ => ⟨S1600000, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S1600000x1, .f32⟩
  | .hbm, ⟨92, _⟩ => ⟨S1600000x128, .f32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x64, .f32⟩
  | .hbm, ⟨105, _⟩ => ⟨S_, .i32⟩
  | .hbm, ⟨106, _⟩ => ⟨S1600000, .i32⟩
  | .hbm, ⟨107, _⟩ => ⟨S1600000, .i1⟩
  | .hbm, ⟨108, _⟩ => ⟨S_, .i32⟩
  | .hbm, ⟨109, _⟩ => ⟨S1600000, .i32⟩
  | .hbm, ⟨110, _⟩ => ⟨S1600000, .i32⟩
  | .hbm, ⟨111, _⟩ => ⟨S1600000, .i32⟩
  | .hbm, ⟨112, _⟩ => ⟨S1600000x1, .i32⟩
  | .hbm, ⟨113, _⟩ => ⟨S1600000x64, .f32⟩
  | .hbm, ⟨114, _⟩ => ⟨S1600000x1, .f32⟩
  | .hbm, ⟨115, _⟩ => ⟨S1600000x64, .f32⟩
  | .hbm, ⟨116, _⟩ => ⟨S1600000x64, .f32⟩
  | .hbm, ⟨117, _⟩ => ⟨S_, .f32⟩
  | .hbm, ⟨118, _⟩ => ⟨S100000x64, .f32⟩
  | .hbm, ⟨119, _⟩ => ⟨S1600000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call2_cst : Ref sig .tc := ⟨.hbm, 78, rfl⟩
abbrev main_call2_v0 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The three-layer graph convolution both programs compute, as ONE function of the argument arrays at the ideal
  instance (floats are extended reals).

  From the edge list `e : i32[2, E]`: the source and target node of each edge (`srcOf`, `dstOf`), a node's in-degree as the
  scatter-sum of ones over the targets (`degOf`), its inverse square root where positive and zero elsewhere (`dinvOf`),
  and the edge weight `dinv[src] · dinv[dst]` (`nrmOf`). A layer takes node features `x`, multiplies by the weights
  (`dense…`: row r, column j is Σₖ x[r,k]·w[k,j]), gathers the product's rows at the edges' sources, scales each by the
  edge weight and scatter-sums them at the edges' targets (`agg…`), then adds the bias row and, for the first two layers,
  takes the maximum with zero (`biasRelu128`, `bias64`).

  The gather / scatter stretch is kept as the very composition of host operations the two programs share; only the dense
  product and the bias row are spelt index by index, because there the two programs differ in form (a blocked matrix unit
  product into a zero accumulator against one whole contraction; a broadcast row inside a pointwise body against two
  host broadcasts).
-/
import proofs.«416586_j33998961116038_2_alg».proof.Proof.Gen.ReferenceIdeal
import Idealize.ShloMosaic.PureOps.Ideal
import Idealize.ShloMosaic.Lib.ValueIdx

noncomputable section

namespace Cert.Gcn

open Idealize.ShloMosaic Idealize.ShloMosaic.ValueIdx Cert.ReferenceIdeal
open Cert.ReferenceIdeal.Facts₀

/-- Each edge's source node: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- Each edge's target node: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- Node indices as a gather's start indices: a negative index counts from the end (n ↦ n + 100000), as a column. -/
def wrap (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- In-degrees: ones scatter-summed at the edges' targets. -/
def degOf (d : IVec S1600000 32) : FVec Ideal S100000 .f32 :=
  Host.scatterAdd scatter_S100000_S1600000x1_S1600000_n_0_0_1 (broadcastInDim S100000 ![] bcast_S_S100000 (constant S_ .f32 0x00000000#32)) (broadcastInDim S1600000x1 ![0] bcast_S1600000_S1600000x1_0 d) (broadcastInDim S1600000 ![] bcast_S_S1600000 (constant S_ .f32 0x3F800000#32))

/-- deg ↦ deg^(-1/2) where deg > 0, else 0. -/
def dinvOf (g : FVec Ideal S100000 .f32) : FVec Ideal S100000 .f32 :=
  select (cmpf .ogt g (broadcastInDim S100000 ![] bcast_S_S100000 (constant S_ .f32 0x00000000#32))) (Host.powf g (broadcastInDim S100000 ![] bcast_S_S100000 (constant S_ .f32 0xBF000000#32))) (broadcastInDim S100000 ![] bcast_S_S100000 (id (constant S_ .f32 0x00000000#32)))

/-- The symmetric edge weight dinv[src] · dinv[dst]. -/
def nrmOf (s d : IVec S1600000 32) : FVec Ideal S1600000 .f32 :=
  mulf (Host.gather gather_S100000_S1600000x1_S1600000_n_0_n_n_0_1_1 (dinvOf (degOf d)) (wrap s)) (Host.gather gather_S100000_S1600000x1_S1600000_n_0_n_n_0_1_1 (dinvOf (degOf d)) (wrap d))

/-- Message passing at width 128: rows of `h` gathered at the sources, scaled by the edge weights, scatter-summed at the targets. -/
def agg128 (h : FVec Ideal S100000x128 .f32) (s d : IVec S1600000 32) (n : FVec Ideal S1600000 .f32) : FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) (mulf (Host.gather gather_S100000x128_S1600000x1_S1600000x128_1_0_n_n_0_1_1128 h (wrap s)) (broadcastInDim S1600000x128 ![0, 1] bcast_S1600000x1_S1600000x128_0_1 (broadcastInDim S1600000x1 ![0] bcast_S1600000_S1600000x1_0 n)))

/-- Message passing at width 64. -/
def agg64 (h : FVec Ideal S100000x64 .f32) (s d : IVec S1600000 32) (n : FVec Ideal S1600000 .f32) : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 d) (mulf (Host.gather gather_S100000x64_S1600000x1_S1600000x64_1_0_n_n_0_1_164 h (wrap s)) (broadcastInDim S1600000x64 ![0, 1] bcast_S1600000x1_S1600000x64_0_1 (broadcastInDim S1600000x1 ![0] bcast_S1600000_S1600000x1_0 n)))

/-- The dense product x · w, 128 columns: entry (r, j) is Σₖ x[r,k] · w[k,j]. -/
def dense128 (x : FVec Ideal S100000x128 .f32) (w : FVec Ideal S128x128 .f32) : FVec Ideal S100000x128 .f32 :=
  fun i => ∑ k : Fin 128, x (ix2 (n0 := 100000) (n1 := 128) (i 0) k) * w (ix2 (n0 := 128) (n1 := 128) k (i 1))

/-- The dense product x · w, 64 columns. -/
def dense64 (x : FVec Ideal S100000x128 .f32) (w : FVec Ideal S128x64 .f32) : FVec Ideal S100000x64 .f32 :=
  fun i => ∑ k : Fin 128, x (ix2 (n0 := 100000) (n1 := 128) (i 0) k) * w (ix2 (n0 := 128) (n1 := 64) k (i 1))

/-- Add the bias to every row, then the maximum with zero. -/
def biasRelu128 (a : FVec Ideal S100000x128 .f32) (b : FVec Ideal S128 .f32) : FVec Ideal S100000x128 .f32 :=
  fun i => max (a i + b (ix1 (n := 128) (i 1))) (Ideal.ofBits .f32 0x00000000#32)

/-- Add the bias to every row. -/
def bias64 (a : FVec Ideal S100000x64 .f32) (b : FVec Ideal S64 .f32) : FVec Ideal S100000x64 .f32 :=
  fun i => a i + b (ix1 (n := 64) (i 1))

/-- `biasRelu128` with the bias held as a one-row matrix, as a pointwise body that loads the row reads it. -/
def rowBiasRelu128 (a : FVec Ideal S100000x128 .f32) (b : FVec Ideal S1x128 .f32) : FVec Ideal S100000x128 .f32 :=
  fun i => max (a i + b (ix2 (n0 := 1) (n1 := 128) 0 (i 1))) (Ideal.ofBits .f32 0x00000000#32)

/-- `bias64` with the bias held as a one-row matrix. -/
def rowBias64 (a : FVec Ideal S100000x64 .f32) (b : FVec Ideal S1x64 .f32) : FVec Ideal S100000x64 .f32 :=
  fun i => a i + b (ix2 (n0 := 1) (n1 := 64) 0 (i 1))

/-- The whole network: three layers over one edge list. -/
def gcn (x : FVec Ideal S100000x128 .f32) (e : IVec S2x1600000 32) (w1 : FVec Ideal S128x128 .f32) (b1 : FVec Ideal S128 .f32)
    (w2 : FVec Ideal S128x128 .f32) (b2 : FVec Ideal S128 .f32) (w3 : FVec Ideal S128x64 .f32) (b3 : FVec Ideal S64 .f32) :
    FVec Ideal S100000x64 .f32 :=
  let s := srcOf e
  let d := dstOf e
  let n := nrmOf s d
  let h1 := biasRelu128 (agg128 (dense128 x w1) s d n) b1
  let h2 := biasRelu128 (agg128 (dense128 h1 w2) s d n) b2
  bias64 (agg64 (dense64 h2 w3) s d n) b3

end Cert.Gcn

end
-- ==== Proof.Dense.lean ====
/-
  The dense product read at an index, on both sides.
  The reference contracts `x : [100000,128]` with `w : [128,F]` in one host contraction; the kernel's body multiplies a block of
  10000 rows by the same `w` on the matrix unit into a zero accumulator, after a change of float format that is the identity
  on extended reals. Both are, at row r and column j, the sum over k of x[r,k]·w[k,j].

  For each of the four contractions (whole array or one block of rows, 128 or 64 columns) the operands' indices at output
  index (r, j) and summation index k are (r, k) and (k, j): four coordinate facts, one per operand axis. The contraction's
  own index type has a single axis of extent 128, so its sum is a sum over `Fin 128`.
-/
import proofs.«416586_j33998961116038_2_alg».proof.Proof.Spec
import proofs.«416586_j33998961116038_2_alg».proof.Proof.Gen.KernelIdeal.Skeleton
import Idealize.ShloMosaic.PureOps.Ideal.Laws
import Idealize.ShloMosaic.Lib.ValueIdx
import Idealize.ShloMosaic.Lib.Pipeline.Value

set_option maxRecDepth 16384

noncomputable section

namespace Cert.Gcn

open Idealize.ShloMosaic Idealize.ShloMosaic.ValueIdx

/-- Whole array, 128 columns: the left operand's row is the output's row. -/
private theorem ref128_lhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl

/-- Whole array, 128 columns: the left operand's column is the summation index. -/
private theorem ref128_lhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

/-- Whole array, 128 columns: the right operand's row is the summation index. -/
private theorem ref128_rhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

/-- Whole array, 128 columns: the right operand's column is the output's column. -/
private theorem ref128_rhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Whole array, 64 columns: the left operand's row is the output's row. -/
private theorem ref64_lhs_row (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl

/-- Whole array, 64 columns: the left operand's column is the summation index. -/
private theorem ref64_lhs_contr (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q

/-- Whole array, 64 columns: the right operand's row is the summation index. -/
private theorem ref64_rhs_contr (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q

/-- Whole array, 64 columns: the right operand's column is the output's column. -/
private theorem ref64_rhs_col (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- One block of rows, 128 columns: the left operand's row is the output's row. -/
private theorem blk128_lhs_row (i : Cert.KernelIdeal.S10000x128.Idx) (q : Cert.KernelIdeal.dot_S10000x128_S128x128_S10000x128_1_0_0_1_n_n.contr.Idx) :
    (Cert.KernelIdeal.dot_S10000x128_S128x128_S10000x128_1_0_0_1_n_n.lhsIdx i q 0).val = (i 0).val := by
  unfold DotDims.lhsIdx
  rw [dif_neg (show ¬(0 : Fin Cert.KernelIdeal.S10000x128.rank) ∈ Cert.KernelIdeal.dot_S10000x128_S128x128_S10000x128_1_0_0_1_n_n.lhsBatch by decide), dif_pos (show (0 : Fin Cert.KernelIdeal.S10000x128.rank) ∈ Cert.KernelIdeal.dot_S10000x128_S128x128_S10000x128_1_0_0_1_n_n.lhsNonContracting by decide)]
  rfl

/-- One block of rows, 128 columns: the left operand's column is the summation index. -/
private theorem blk128_lhs_contr (i : Cert.KernelIdeal.S10000x128.Idx) (q : Cert.KernelIdeal.dot_S10000x128_S128x128_S10000x128_1_0_0_1_n_n.contr.Idx) :
    (Cert.KernelIdeal.dot_S10000x128_S128x128_S10000x128_1_0_0_1_n_n.lhsIdx i q 1).val = (q ⟨0, by decide⟩).val :=
  Cert.KernelIdeal.dot_S10000x128_S128x128_S10000x128_1_0_0_1_n_n.lhsIdx_val_of_single rfl i q

/-- One block of rows, 128 columns: the right operand's row is the summation index. -/
private theorem blk128_rhs_contr (i : Cert.KernelIdeal.S10000x128.Idx) (q : Cert.KernelIdeal.dot_S10000x128_S128x128_S10000x128_1_0_0_1_n_n.contr.Idx) :
    (Cert.KernelIdeal.dot_S10000x128_S128x128_S10000x128_1_0_0_1_n_n.rhsIdx i q 0).val = (q ⟨0, by decide⟩).val :=
  Cert.KernelIdeal.dot_S10000x128_S128x128_S10000x128_1_0_0_1_n_n.rhsIdx_val_of_single rfl i q

/-- One block of rows, 128 columns: the right operand's column is the output's column. -/
private theorem blk128_rhs_col (i : Cert.KernelIdeal.S10000x128.Idx) (q : Cert.KernelIdeal.dot_S10000x128_S128x128_S10000x128_1_0_0_1_n_n.contr.Idx) :
    (Cert.KernelIdeal.dot_S10000x128_S128x128_S10000x128_1_0_0_1_n_n.rhsIdx i q 1).val = (i 1).val := by
  unfold DotDims.rhsIdx
  rw [dif_neg (show ¬(1 : Fin Cert.KernelIdeal.S128x128.rank) ∈ Cert.KernelIdeal.dot_S10000x128_S128x128_S10000x128_1_0_0_1_n_n.rhsBatch by decide), dif_pos (show (1 : Fin Cert.KernelIdeal.S128x128.rank) ∈ Cert.KernelIdeal.dot_S10000x128_S128x128_S10000x128_1_0_0_1_n_n.rhsNonContracting by decide)]
  rfl

/-- One block of rows, 64 columns: the left operand's row is the output's row. -/
private theorem blk64_lhs_row (i : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.lhsIdx i q 0).val = (i 0).val := by
  unfold DotDims.lhsIdx
  rw [dif_neg (show ¬(0 : Fin Cert.KernelIdeal.S10000x128.rank) ∈ Cert.KernelIdeal.dot_S10000x128_S128x64_S10000x64_1_0_0_1_n_n.lhsBatch by decide), dif_pos (show (0 : Fin Cert.KernelIdeal.S10000x128.rank) ∈ Cert.KernelIdeal.dot_S10000x128_S128x64_S10000x64_1_0_0_1_n_n.lhsNonContracting by decide)]
  rfl

/-- One block of rows, 64 columns: the left operand's column is the summation index. -/
private theorem blk64_lhs_contr (i : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.lhsIdx i q 1).val = (q ⟨0, by decide⟩).val :=
  Cert.KernelIdeal.dot_S10000x128_S128x64_S10000x64_1_0_0_1_n_n.lhsIdx_val_of_single rfl i q

/-- One block of rows, 64 columns: the right operand's row is the summation index. -/
private theorem blk64_rhs_contr (i : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.rhsIdx i q 0).val = (q ⟨0, by decide⟩).val :=
  Cert.KernelIdeal.dot_S10000x128_S128x64_S10000x64_1_0_0_1_n_n.rhsIdx_val_of_single rfl i q

/-- One block of rows, 64 columns: the right operand's column is the output's column. -/
private theorem blk64_rhs_col (i : Cert.KernelIdeal.S10000x64.Idx) (q : Cert.KernelIdeal.dot_S10000x128_S128x64_S10000x64_1_0_0_1_n_n.contr.Idx) :
    (Cert.KernelIdeal.dot_S10000x128_S128x64_S10000x64_1_0_0_1_n_n.rhsIdx i q 1).val = (i 1).val := by
  unfold DotDims.rhsIdx
  rw [dif_neg (show ¬(1 : Fin Cert.KernelIdeal.S128x64.rank) ∈ Cert.KernelIdeal.dot_S10000x128_S128x64_S10000x64_1_0_0_1_n_n.rhsBatch by decide), dif_pos (show (1 : Fin Cert.KernelIdeal.S128x64.rank) ∈ Cert.KernelIdeal.dot_S10000x128_S128x64_S10000x64_1_0_0_1_n_n.rhsNonContracting by decide)]
  rfl

/-- The matrix unit's product of a block of rows into a zero accumulator, 128 columns: entry (p, j) is Σₖ a[p,k]·b[k,j]. -/
private theorem blk128_matmul_zero {φ₁ φ₂ : FTy} (a : FVec Ideal Cert.KernelIdeal.S10000x128 φ₁) (b : FVec Ideal Cert.KernelIdeal.S128x128 φ₂) (p : Fin 10000) (j : Fin 128) :
    FloatOps.matmul Cert.KernelIdeal.dot_S10000x128_S128x128_S10000x128_1_0_0_1_n_n none a b (constant (F := Ideal) Cert.KernelIdeal.S10000x128 .f32 0x00000000#32) (ix2 (n0 := 10000) (n1 := 128) p j)
      = ∑ k : Fin 128, a (ix2 (n0 := 10000) (n1 := 128) p k) * b (ix2 (n0 := 128) (n1 := 128) k j) := by
  rw [Ideal.matmul_constant_zero_apply]
  rw [← Equiv.sum_comp (contrEquiv1 Cert.KernelIdeal.dot_S10000x128_S128x128_S10000x128_1_0_0_1_n_n 128 rfl rfl).symm]
  refine Finset.sum_congr rfl fun k _ => ?_
  have hk := contrEquiv1_symm_val Cert.KernelIdeal.dot_S10000x128_S128x128_S10000x128_1_0_0_1_n_n 128 rfl rfl k
  have el : Cert.KernelIdeal.dot_S10000x128_S128x128_S10000x128_1_0_0_1_n_n.lhsIdx (ix2 (n0 := 10000) (n1 := 128) p j) ((contrEquiv1 Cert.KernelIdeal.dot_S10000x128_S128x128_S10000x128_1_0_0_1_n_n 128 rfl rfl).symm k) = ix2 (n0 := 10000) (n1 := 128) p k := funext fun a => Fin.ext (by
    match a with
    | ⟨0, _⟩ => exact blk128_lhs_row _ _
    | ⟨1, _⟩ => exact (blk128_lhs_contr _ _).trans hk)
  have er : Cert.KernelIdeal.dot_S10000x128_S128x128_S10000x128_1_0_0_1_n_n.rhsIdx (ix2 (n0 := 10000) (n1 := 128) p j) ((contrEquiv1 Cert.KernelIdeal.dot_S10000x128_S128x128_S10000x128_1_0_0_1_n_n 128 rfl rfl).symm k) = ix2 (n0 := 128) (n1 := 128) k j := funext fun a => Fin.ext (by
    match a with
    | ⟨0, _⟩ => exact (blk128_rhs_contr _ _).trans hk
    | ⟨1, _⟩ => exact blk128_rhs_col _ _)
  rw [el, er]

/-- The same at 64 columns. -/
private theorem blk64_matmul_zero {φ₁ φ₂ : FTy} (a : FVec Ideal Cert.KernelIdeal.S10000x128 φ₁) (b : FVec Ideal Cert.KernelIdeal.S128x64 φ₂) (p : Fin 10000) (j : Fin 64) :
    FloatOps.matmul Cert.KernelIdeal.dot_S10000x128_S128x64_S10000x64_1_0_0_1_n_n none a b (constant (F := Ideal) Cert.KernelIdeal.S10000x64 .f32 0x00000000#32) (ix2 (n0 := 10000) (n1 := 64) p j)
      = ∑ k : Fin 128, a (ix2 (n0 := 10000) (n1 := 128) p k) * b (ix2 (n0 := 128) (n1 := 64) k j) := by
  rw [Ideal.matmul_constant_zero_apply]
  rw [← Equiv.sum_comp (contrEquiv1 Cert.KernelIdeal.dot_S10000x128_S128x64_S10000x64_1_0_0_1_n_n 128 rfl rfl).symm]
  refine Finset.sum_congr rfl fun k _ => ?_
  have hk := contrEquiv1_symm_val Cert.KernelIdeal.dot_S10000x128_S128x64_S10000x64_1_0_0_1_n_n 128 rfl rfl k
  have el : Cert.KernelIdeal.dot_S10000x128_S128x64_S10000x64_1_0_0_1_n_n.lhsIdx (ix2 (n0 := 10000) (n1 := 64) p j) ((contrEquiv1 Cert.KernelIdeal.dot_S10000x128_S128x64_S10000x64_1_0_0_1_n_n 128 rfl rfl).symm k) = ix2 (n0 := 10000) (n1 := 128) p k := funext fun a => Fin.ext (by
    match a with
    | ⟨0, _⟩ => exact blk64_lhs_row _ _
    | ⟨1, _⟩ => exact (blk64_lhs_contr _ _).trans hk)
  have er : Cert.KernelIdeal.dot_S10000x128_S128x64_S10000x64_1_0_0_1_n_n.rhsIdx (ix2 (n0 := 10000) (n1 := 64) p j) ((contrEquiv1 Cert.KernelIdeal.dot_S10000x128_S128x64_S10000x64_1_0_0_1_n_n 128 rfl rfl).symm k) = ix2 (n0 := 128) (n1 := 64) k j := funext fun a => Fin.ext (by
    match a with
    | ⟨0, _⟩ => exact (blk64_rhs_contr _ _).trans hk
    | ⟨1, _⟩ => exact blk64_rhs_col _ _)
  rw [el, er]

/-- The reference's contraction at 128 columns is the dense product. -/
theorem dotGeneral128_eq (x : FVec Ideal Cert.ReferenceIdeal.S100000x128 .f32) (w : FVec Ideal Cert.ReferenceIdeal.S128x128 .f32) :
    Host.dotGeneral (F := Ideal) Cert.ReferenceIdeal.dot_S100000x128_S128x128_S100000x128_1_0_0_1_n_n none x w = dense128 x w := by
  funext i
  unfold dense128
  simp only [Host.dotGeneral]
  rw [Ideal.dotGeneral_apply]
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (n0 := 100000) (n1 := 128) (i 0) k := funext fun a => Fin.ext (by
    match a with
    | ⟨0, _⟩ => exact ref128_lhs_row _ _
    | ⟨1, _⟩ => exact (ref128_lhs_contr _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 (n0 := 128) (n1 := 128) k (i 1) := funext fun a => Fin.ext (by
    match a with
    | ⟨0, _⟩ => exact (ref128_rhs_contr _ _).trans hk
    | ⟨1, _⟩ => exact ref128_rhs_col _ _)
  rw [el, er]

/-- The reference's contraction at 64 columns is the dense product. -/
theorem dotGeneral64_eq (x : FVec Ideal Cert.ReferenceIdeal.S100000x128 .f32) (w : FVec Ideal Cert.ReferenceIdeal.S128x64 .f32) :
    Host.dotGeneral (F := Ideal) Cert.ReferenceIdeal.dot_S100000x128_S128x64_S100000x64_1_0_0_1_n_n none x w = dense64 x w := by
  funext i
  unfold dense64
  simp only [Host.dotGeneral]
  rw [Ideal.dotGeneral_apply]
  rw [← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((contrEquiv1 Cert.ReferenceIdeal.dot_S100000x128_S128x64_S100000x64_1_0_0_1_n_n 128 rfl rfl).symm k) = ix2 (n0 := 100000) (n1 := 128) (i 0) k := funext fun a => Fin.ext (by
    match a with
    | ⟨0, _⟩ => exact ref64_lhs_row _ _
    | ⟨1, _⟩ => exact (ref64_lhs_contr _ _).trans hk)
  have er : Cert.ReferenceIdeal.dot_S100000x128_S128x64_S100000x64_1_0_0_1_n_n.rhsIdx i ((contrEquiv1 Cert.ReferenceIdeal.dot_S100000x128_S128x64_S100000x64_1_0_0_1_n_n 128 rfl rfl).symm k) = ix2 (n0 := 128) (n1 := 64) k (i 1) := funext fun a => Fin.ext (by
    match a with
    | ⟨0, _⟩ => exact (ref64_rhs_contr _ _).trans hk
    | ⟨1, _⟩ => exact ref64_rhs_col _ _)
  rw [el, er]

/-- Region 0's body on a block of rows: row p, column j of the block's product. -/
theorem k0_pay1_apply (xb : Vec Ideal Cert.KernelIdeal.S10000x128 .f32) (w : Vec Ideal Cert.KernelIdeal.S128x128 .f32) (p : Fin 10000) (j : Fin 128) :
    Cert.KernelIdeal.Gen.k0_pay1 (F := Ideal) xb w (ix2 (n0 := 10000) (n1 := 128) p j)
      = ∑ k : Fin 128, xb (ix2 (n0 := 10000) (n1 := 128) p k) * w (ix2 (n0 := 128) (n1 := 128) k j) := by
  unfold Cert.KernelIdeal.Gen.k0_pay1
  simp only [matmul]
  rw [blk128_matmul_zero]
  simp only [truncf_apply]

/-- Region 2's body on a block of rows. -/
theorem k2_pay1_apply (xb : Vec Ideal Cert.KernelIdeal.S10000x128 .f32) (w : Vec Ideal Cert.KernelIdeal.S128x128 .f32) (p : Fin 10000) (j : Fin 128) :
    Cert.KernelIdeal.Gen.k2_pay1 (F := Ideal) xb w (ix2 (n0 := 10000) (n1 := 128) p j)
      = ∑ k : Fin 128, xb (ix2 (n0 := 10000) (n1 := 128) p k) * w (ix2 (n0 := 128) (n1 := 128) k j) := by
  unfold Cert.KernelIdeal.Gen.k2_pay1
  simp only [matmul]
  rw [shapeCast_self, blk128_matmul_zero]
  simp only [truncf_apply]

/-- Region 4's body on a block of rows, 64 columns. -/
theorem k4_pay1_apply (xb : Vec Ideal Cert.KernelIdeal.S10000x128 .f32) (w : Vec Ideal Cert.KernelIdeal.S128x64 .f32) (p : Fin 10000) (j : Fin 64) :
    Cert.KernelIdeal.Gen.k4_pay1 (F := Ideal) xb w (ix2 (n0 := 10000) (n1 := 64) p j)
      = ∑ k : Fin 128, xb (ix2 (n0 := 10000) (n1 := 128) p k) * w (ix2 (n0 := 128) (n1 := 64) k j) := by
  unfold Cert.KernelIdeal.Gen.k4_pay1
  simp only [matmul]
  rw [shapeCast_self, blk64_matmul_zero]
  simp only [truncf_apply]

end Cert.Gcn

end
-- ==== Proof.RefValue.lean ====
/-
  The reference's result is the network of Spec.lean.
  Its run ends with the result array at one composed term of host operations of the arguments. That term is the
  specification's composition once each whole contraction is read as the dense product, and each "add the twice-broadcast
  bias, then the maximum with a broadcast zero" is read as the row-wise bias with maximum.
-/
import proofs.«416586_j33998961116038_2_alg».proof.Proof.Spec
import proofs.«416586_j33998961116038_2_alg».proof.Proof.Dense
import proofs.«416586_j33998961116038_2_alg».proof.Proof.RefRun
import Idealize.ShloMosaic.Lib.ValueIdx
import Idealize.ShloMosaic.Lib.Pipeline.Value

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Facts₀

/-- The bias, broadcast first to a one-row matrix and then to every row, read at an index is the bias at that index's column. -/
private theorem bcast_row128 (b : FVec Ideal S128 .f32) (i : S100000x128.Idx) :
    broadcastInDim S100000x128 ![0, 1] bcast_S1x128_S100000x128_0_1 (broadcastInDim S1x128 ![1] bcast_S128_S1x128_1 b) i
      = b (ix1 (n := 128) (i 1)) := by
  have h1 : broadcastInDim S100000x128 ![0, 1] bcast_S1x128_S100000x128_0_1 (broadcastInDim S1x128 ![1] bcast_S128_S1x128_1 b) i
      = broadcastInDim S1x128 ![1] bcast_S128_S1x128_1 b (ix2 (n0 := 1) (n1 := 128) 0 (i 1)) := by
    generalize broadcastInDim S1x128 ![1] bcast_S128_S1x128_1 b = y
    exact broadcastInDim_apply _ bcast_S1x128_S100000x128_0_1 y i (ix2 (n0 := 1) (n1 := 128) 0 (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  rw [h1]
  exact broadcastInDim_apply _ bcast_S128_S1x128_1 b (ix2 (n0 := 1) (n1 := 128) 0 (i 1)) (ix1 (n := 128) (i 1)) (fun a => match a with
    | ⟨0, _⟩ => by show (i 1).val = if (128 : Nat) = 1 then 0 else (i 1).val; rw [if_neg (by decide)])

/-- The same at 64 columns. -/
private theorem bcast_row64 (b : FVec Ideal S64 .f32) (i : S100000x64.Idx) :
    broadcastInDim S100000x64 ![0, 1] bcast_S1x64_S100000x64_0_1 (broadcastInDim S1x64 ![1] bcast_S64_S1x64_1 b) i
      = b (ix1 (n := 64) (i 1)) := by
  have h1 : broadcastInDim S100000x64 ![0, 1] bcast_S1x64_S100000x64_0_1 (broadcastInDim S1x64 ![1] bcast_S64_S1x64_1 b) i
      = broadcastInDim S1x64 ![1] bcast_S64_S1x64_1 b (ix2 (n0 := 1) (n1 := 64) 0 (i 1)) := by
    generalize broadcastInDim S1x64 ![1] bcast_S64_S1x64_1 b = y
    exact broadcastInDim_apply _ bcast_S1x64_S100000x64_0_1 y i (ix2 (n0 := 1) (n1 := 64) 0 (i 1)) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  rw [h1]
  exact broadcastInDim_apply _ bcast_S64_S1x64_1 b (ix2 (n0 := 1) (n1 := 64) 0 (i 1)) (ix1 (n := 64) (i 1)) (fun a => match a with
    | ⟨0, _⟩ => by show (i 1).val = if (64 : Nat) = 1 then 0 else (i 1).val; rw [if_neg (by decide)])

/-- The scalar zero broadcast to the whole matrix is zero at every index. -/
private theorem bcast_zero128 (i : S100000x128.Idx) :
    broadcastInDim S100000x128 ![] bcast_S_S100000x128 (constant (F := Ideal) S_ .f32 0x00000000#32) i
      = Ideal.ofBits .f32 0x00000000#32 := by
  rw [broadcastInDim_apply _ bcast_S_S100000x128 (constant (F := Ideal) S_ .f32 0x00000000#32) i ix0 (fun a => a.elim0)]
  rfl

/-- Adding the bias broadcast to every row and taking the maximum with a broadcast zero is the row-wise bias with maximum. -/
theorem bias_relu_ref (a : FVec Ideal S100000x128 .f32) (b : FVec Ideal S128 .f32) :
    maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Gcn.biasRelu128 a b := by
  funext i
  rw [maximumf_apply, addf_apply, bcast_row128, bcast_zero128]
  rfl

/-- Adding the bias broadcast to every row, 64 columns. -/
theorem bias_ref64 (a : FVec Ideal S100000x64 .f32) (b : FVec Ideal S64 .f32) :
    addf a (broadcastInDim S100000x64 ![0, 1] bcast_S1x64_S100000x64_0_1 (broadcastInDim S1x64 ![1] bcast_S64_S1x64_1 b))
      = Cert.Gcn.bias64 a b := by
  funext i
  rw [addf_apply, bcast_row64]
  rfl

/-- The reference run's result term is the network of the launch contents of its eight arguments. -/
theorem res_eq (m : (ℓ : Loc nD τ sig) → Buf (Elt Ideal) ℓ) (c : Dev nD) :
    Cert.ReferenceIdeal.Value.res_main_v86 (F := Ideal) m c
      = Cert.Gcn.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v86
  -- The last layer's bias and contraction, then the two earlier layers' bias-with-maximum and contraction:
  -- each of the three layers has its own operands, so each is read once.
  rw [bias_ref64, Cert.Gcn.dotGeneral64_eq, bias_relu_ref, Cert.Gcn.dotGeneral128_eq, bias_relu_ref, Cert.Gcn.dotGeneral128_eq]
  -- What is left is the gather / scatter composition, which the specification's definitions name piece by piece:
  -- unfolding those names gives the same term on both sides.
  unfold Cert.Gcn.gcn
  simp only [Cert.Gcn.srcOf, Cert.Gcn.dstOf, Cert.Gcn.wrap, Cert.Gcn.degOf, Cert.Gcn.dinvOf, Cert.Gcn.nrmOf, Cert.Gcn.agg128, Cert.Gcn.agg64]

end Cert.ReferenceIdeal.RefValue

end
-- ==== Proof.HostK.lean ====
/-
  The host stretches of the kernel's program, each as a pure function of the buffer contents it starts from.
  Before the first region: the edges' sources and targets and the edge weights, from the edge list. Between a dense-product
  region and the bias region after it: the message passing over the product (gather at the sources, scale, scatter-sum at
  the targets) and the bias reshaped to one row. A stretch leaves every buffer it does not write as it found it.
-/
import proofs.«416586_j33998961116038_2_alg».proof.Proof.Spec
import proofs.«416586_j33998961116038_2_alg».proof.Proof.Gen.KernelIdeal.Launch
import Idealize.ShloMosaic.Lib.StableHlo.Run

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen

/-! ## Before the first region: three stretches on the edge list -/

/-- The edges' sources. -/
theorem h0_v1 (W : Valuation τ sig (Elt Ideal)) :
    StableHlo.after (hostOps0 (F := Ideal)) W (Proc.devRef .tc main_v1) = Cert.Gcn.srcOf (W (Proc.devRef .tc main_arg1)) := by
  dsimp only [hostOps0]
  after_results_simp
  rfl

/-- The edges' targets. -/
theorem h0_v3 (W : Valuation τ sig (Elt Ideal)) :
    StableHlo.after (hostOps0 (F := Ideal)) W (Proc.devRef .tc main_v3) = Cert.Gcn.dstOf (W (Proc.devRef .tc main_arg1)) := by
  dsimp only [hostOps0]
  after_results_simp
  rfl

/-- Where the in-degree is positive. -/
theorem h0_v9 (W : Valuation τ sig (Elt Ideal)) :
    StableHlo.after (hostOps0 (F := Ideal)) W (Proc.devRef .tc main_v9)
      = cmpf .ogt (Cert.Gcn.degOf (Cert.Gcn.dstOf (W (Proc.devRef .tc main_arg1)))) (broadcastInDim S100000 ![] Facts₀.bcast_S_S100000 (constant (F := Ideal) S_ .f32 0x00000000#32)) := by
  dsimp only [hostOps0]
  after_results_simp
  rfl

/-- The in-degree to the power -1/2. -/
theorem h0_v11 (W : Valuation τ sig (Elt Ideal)) :
    StableHlo.after (hostOps0 (F := Ideal)) W (Proc.devRef .tc main_v11)
      = Host.powf (Cert.Gcn.degOf (Cert.Gcn.dstOf (W (Proc.devRef .tc main_arg1)))) (broadcastInDim S100000 ![] Facts₀.bcast_S_S100000 (constant (F := Ideal) S_ .f32 0xBF000000#32)) := by
  dsimp only [hostOps0]
  after_results_simp
  rfl

/-- The zero the selection falls back to. -/
theorem h0_cst3 (W : Valuation τ sig (Elt Ideal)) :
    StableHlo.after (hostOps0 (F := Ideal)) W (Proc.devRef .tc main_cst_3) = constant (F := Ideal) S_ .f32 0x00000000#32 := by
  dsimp only [hostOps0]
  after_results_simp

theorem h0_keep_arg0 (W : Valuation τ sig (Elt Ideal)) :
    StableHlo.after (hostOps0 (F := Ideal)) W (Proc.devRef .tc main_arg0) = W (Proc.devRef .tc main_arg0) := by
  dsimp only [hostOps0]
  after_results_simp

theorem h0_keep_arg2 (W : Valuation τ sig (Elt Ideal)) :
    StableHlo.after (hostOps0 (F := Ideal)) W (Proc.devRef .tc main_arg2) = W (Proc.devRef .tc main_arg2) := by
  dsimp only [hostOps0]
  after_results_simp

theorem h0_keep_arg3 (W : Valuation τ sig (Elt Ideal)) :
    StableHlo.after (hostOps0 (F := Ideal)) W (Proc.devRef .tc main_arg3) = W (Proc.devRef .tc main_arg3) := by
  dsimp only [hostOps0]
  after_results_simp

theorem h0_keep_arg4 (W : Valuation τ sig (Elt Ideal)) :
    StableHlo.after (hostOps0 (F := Ideal)) W (Proc.devRef .tc main_arg4) = W (Proc.devRef .tc main_arg4) := by
  dsimp only [hostOps0]
  after_results_simp

theorem h0_keep_arg5 (W : Valuation τ sig (Elt Ideal)) :
    StableHlo.after (hostOps0 (F := Ideal)) W (Proc.devRef .tc main_arg5) = W (Proc.devRef .tc main_arg5) := by
  dsimp only [hostOps0]
  after_results_simp

theorem h0_keep_arg6 (W : Valuation τ sig (Elt Ideal)) :
    StableHlo.after (hostOps0 (F := Ideal)) W (Proc.devRef .tc main_arg6) = W (Proc.devRef .tc main_arg6) := by
  dsimp only [hostOps0]
  after_results_simp

theorem h0_keep_arg7 (W : Valuation τ sig (Elt Ideal)) :
    StableHlo.after (hostOps0 (F := Ideal)) W (Proc.devRef .tc main_arg7) = W (Proc.devRef .tc main_arg7) := by
  dsimp only [hostOps0]
  after_results_simp

/-- The selection: deg^(-1/2) where the degree is positive, zero elsewhere. -/
theorem h01_v12 (W : Valuation τ sig (Elt Ideal)) (g : FVec Ideal S100000 .f32)
    (h9 : W (Proc.devRef .tc main_v9) = cmpf .ogt g (broadcastInDim S100000 ![] Facts₀.bcast_S_S100000 (constant (F := Ideal) S_ .f32 0x00000000#32)))
    (h11 : W (Proc.devRef .tc main_v11) = Host.powf g (broadcastInDim S100000 ![] Facts₀.bcast_S_S100000 (constant (F := Ideal) S_ .f32 0xBF000000#32)))
    (hc : W (Proc.devRef .tc main_cst_3) = constant (F := Ideal) S_ .f32 0x00000000#32) :
    StableHlo.after (hostOps0_1 (F := Ideal)) W (Proc.devRef .tc main_v12) = Cert.Gcn.dinvOf g := by
  dsimp only [hostOps0_1]
  after_results_simp
  simp only [TRef.ofBuf, TRef.toBuf, cast_eq]
  rw [h9, h11, hc]
  rfl

theorem h01_keep_v1 (W : Valuation τ sig (Elt Ideal)) :
    StableHlo.after (hostOps0_1 (F := Ideal)) W (Proc.devRef .tc main_v1) = W (Proc.devRef .tc main_v1) := by
  dsimp only [hostOps0_1]
  after_results_simp

theorem h01_keep_v3 (W : Valuation τ sig (Elt Ideal)) :
    StableHlo.after (hostOps0_1 (F := Ideal)) W (Proc.devRef .tc main_v3) = W (Proc.devRef .tc main_v3) := by
  dsimp only [hostOps0_1]
  after_results_simp

theorem h01_keep_arg0 (W : Valuation τ sig (Elt Ideal)) :
    StableHlo.after (hostOps0_1 (F := Ideal)) W (Proc.devRef .tc main_arg0) = W (Proc.devRef .tc main_arg0) := by
  dsimp only [hostOps0_1]
  after_results_simp

theorem h01_keep_arg2 (W : Valuation τ sig (Elt Ideal)) :
    StableHlo.after (hostOps0_1 (F := Ideal)) W (Proc.devRef .tc main_arg2) = W (Proc.devRef .tc main_arg2) := by
  dsimp only [hostOps0_1]
  after_results_simp

theorem h01_keep_arg3 (W : Valuation τ sig (Elt Ideal)) :
    StableHlo.after (hostOps0_1 (F := Ideal)) W (Proc.devRef .tc main_arg3) = W (Proc.devRef .tc main_arg3) := by
  dsimp only [hostOps0_1]
  after_results_simp

theorem h01_keep_arg4 (W : Valuation τ sig (Elt Ideal)) :
    StableHlo.after (hostOps0_1 (F := Ideal)) W (Proc.devRef .tc main_arg4) = W (Proc.devRef .tc main_arg4) := by
  dsimp only [hostOps0_1]
  after_results_simp

theorem h01_keep_arg5 (W : Valuation τ sig (Elt Ideal)) :
    StableHlo.after (hostOps0_1 (F := Ideal)) W (Proc.devRef .tc main_arg5) = W (Proc.devRef .tc main_arg5) := by
  dsimp only [hostOps0_1]
  after_results_simp

theorem h01_keep_arg6 (W : Valuation τ sig (Elt Ideal)) :
    StableHlo.after (hostOps0_1 (F := Ideal)) W (Proc.devRef .tc main_arg6) = W (Proc.devRef .tc main_arg6) := by
  dsimp only [hostOps0_1]
  after_results_simp

theorem h01_keep_arg7 (W : Valuation τ sig (Elt Ideal)) :
    StableHlo.after (hostOps0_1 (F := Ideal)) W (Proc.devRef .tc main_arg7) = W (Proc.devRef .tc main_arg7) := by
  dsimp only [hostOps0_1]
  after_results_simp

/-- The edge weights dinv[src] · dinv[dst]. -/
theorem h02_v27 (W : Valuation τ sig (Elt Ideal)) (s d : IVec S1600000 32) (q : FVec Ideal S100000 .f32)
    (h1 : W (Proc.devRef .tc main_v1) = s) (h3 : W (Proc.devRef .tc main_v3) = d) (h12 : W (Proc.devRef .tc main_v12) = q) :
    StableHlo.after (hostOps0_2 (F := Ideal)) W (Proc.devRef .tc main_v27)
      = mulf (Host.gather gather_S100000_S1600000x1_S1600000_n_0_n_n_0_1_1 q (Cert.Gcn.wrap s)) (Host.gather gather_S100000_S1600000x1_S1600000_n_0_n_n_0_1_1 q (Cert.Gcn.wrap d)) := by
  dsimp only [hostOps0_2]
  after_results_simp
  rw [h1, h3, h12]
  rfl

/-- With the selection at the degrees' inverse square roots, those are the network's edge weights. -/
theorem nrm_fold (s d : IVec S1600000 32) :
    mulf (Host.gather gather_S100000_S1600000x1_S1600000_n_0_n_n_0_1_1 (Cert.Gcn.dinvOf (Cert.Gcn.degOf d)) (Cert.Gcn.wrap s)) (Host.gather gather_S100000_S1600000x1_S1600000_n_0_n_n_0_1_1 (Cert.Gcn.dinvOf (Cert.Gcn.degOf d)) (Cert.Gcn.wrap d))
      = Cert.Gcn.nrmOf s d := rfl

theorem h02_keep_v1 (W : Valuation τ sig (Elt Ideal)) :
    StableHlo.after (hostOps0_2 (F := Ideal)) W (Proc.devRef .tc main_v1) = W (Proc.devRef .tc main_v1) := by
  dsimp only [hostOps0_2]
  after_results_simp

theorem h02_keep_v3 (W : Valuation τ sig (Elt Ideal)) :
    StableHlo.after (hostOps0_2 (F := Ideal)) W (Proc.devRef .tc main_v3) = W (Proc.devRef .tc main_v3) := by
  dsimp only [hostOps0_2]
  after_results_simp

theorem h02_keep_arg0 (W : Valuation τ sig (Elt Ideal)) :
    StableHlo.after (hostOps0_2 (F := Ideal)) W (Proc.devRef .tc main_arg0) = W (Proc.devRef .tc main_arg0) := by
  dsimp only [hostOps0_2]
  after_results_simp

theorem h02_keep_arg2 (W : Valuation τ sig (Elt Ideal)) :
    StableHlo.after (hostOps0_2 (F := Ideal)) W (Proc.devRef .tc main_arg2) = W (Proc.devRef .tc main_arg2) := by
  dsimp only [hostOps0_2]
  after_results_simp

theorem h02_keep_arg3 (W : Valuation τ sig (Elt Ideal)) :
    StableHlo.after (hostOps0_2 (F := Ideal)) W (Proc.devRef .tc main_arg3) = W (Proc.devRef .tc main_arg3) := by
  dsimp only [hostOps0_2]
  after_results_simp

theorem h02_keep_arg4 (W : Valuation τ sig (Elt Ideal)) :
    StableHlo.after (hostOps0_2 (F := Ideal)) W (Proc.devRef .tc main_arg4) = W (Proc.devRef .tc main_arg4) := by
  dsimp only [hostOps0_2]
  after_results_simp

theorem h02_keep_arg5 (W : Valuation τ sig (Elt Ideal)) :
    StableHlo.after (hostOps0_2 (F := Ideal)) W (Proc.devRef .tc main_arg5) = W (Proc.devRef .tc main_arg5) := by
  dsimp only [hostOps0_2]
  after_results_simp

theorem h02_keep_arg6 (W : Valuation τ sig (Elt Ideal)) :
    StableHlo.after (hostOps0_2 (F := Ideal)) W (Proc.devRef .tc main_arg6) = W (Proc.devRef .tc main_arg6) := by
  dsimp only [hostOps0_2]
  after_results_simp

theorem h02_keep_arg7 (W : Valuation τ sig (Elt Ideal)) :
    StableHlo.after (hostOps0_2 (F := Ideal)) W (Proc.devRef .tc main_arg7) = W (Proc.devRef .tc main_arg7) := by
  dsimp only [hostOps0_2]
  after_results_simp

/-! ## After region 0: the first layer's message passing -/

set_option maxHeartbeats 1000000 in
theorem host1_v41 (W : Valuation τ sig (Elt Ideal)) :
    StableHlo.after (hostOps1 (F := Ideal)) W (Proc.devRef .tc main_v41)
      = Cert.Gcn.agg128 (W (Proc.devRef .tc main_v28)) (W (Proc.devRef .tc main_v1)) (W (Proc.devRef .tc main_v3)) (W (Proc.devRef .tc main_v27)) := by
  dsimp only [hostOps1]
  after_results_simp
  rfl

theorem host1_v42 (W : Valuation τ sig (Elt Ideal)) :
    StableHlo.after (hostOps1 (F := Ideal)) W (Proc.devRef .tc main_v42) = shapeCast S1x128 (W (Proc.devRef .tc main_arg3)) Facts₀.shapeCasts_S128_S1x128 := by
  dsimp only [hostOps1]
  after_results_simp
  rfl

theorem host1_keep_v1 (W : Valuation τ sig (Elt Ideal)) :
    StableHlo.after (hostOps1 (F := Ideal)) W (Proc.devRef .tc main_v1) = W (Proc.devRef .tc main_v1) := by
  dsimp only [hostOps1]
  after_results_simp

theorem host1_keep_v3 (W : Valuation τ sig (Elt Ideal)) :
    StableHlo.after (hostOps1 (F := Ideal)) W (Proc.devRef .tc main_v3) = W (Proc.devRef .tc main_v3) := by
  dsimp only [hostOps1]
  after_results_simp

theorem host1_keep_v27 (W : Valuation τ sig (Elt Ideal)) :
    StableHlo.after (hostOps1 (F := Ideal)) W (Proc.devRef .tc main_v27) = W (Proc.devRef .tc main_v27) := by
  dsimp only [hostOps1]
  after_results_simp

theorem host1_keep_arg4 (W : Valuation τ sig (Elt Ideal)) :
    StableHlo.after (hostOps1 (F := Ideal)) W (Proc.devRef .tc main_arg4) = W (Proc.devRef .tc main_arg4) := by
  dsimp only [hostOps1]
  after_results_simp

theorem host1_keep_arg5 (W : Valuation τ sig (Elt Ideal)) :
    StableHlo.after (hostOps1 (F := Ideal)) W (Proc.devRef .tc main_arg5) = W (Proc.devRef .tc main_arg5) := by
  dsimp only [hostOps1]
  after_results_simp

theorem host1_keep_arg6 (W : Valuation τ sig (Elt Ideal)) :
    StableHlo.after (hostOps1 (F := Ideal)) W (Proc.devRef .tc main_arg6) = W (Proc.devRef .tc main_arg6) := by
  dsimp only [hostOps1]
  after_results_simp

theorem host1_keep_arg7 (W : Valuation τ sig (Elt Ideal)) :
    StableHlo.after (hostOps1 (F := Ideal)) W (Proc.devRef .tc main_arg7) = W (Proc.devRef .tc main_arg7) := by
  dsimp only [hostOps1]
  after_results_simp

/-! ## After region 2: the second layer's message passing -/

set_option maxHeartbeats 1000000 in
theorem host3_v57 (W : Valuation τ sig (Elt Ideal)) :
    StableHlo.after (hostOps3 (F := Ideal)) W (Proc.devRef .tc main_v57)
      = Cert.Gcn.agg128 (W (Proc.devRef .tc main_v44)) (W (Proc.devRef .tc main_v1)) (W (Proc.devRef .tc main_v3)) (W (Proc.devRef .tc main_v27)) := by
  dsimp only [hostOps3]
  after_results_simp
  rfl

theorem host3_v58 (W : Valuation τ sig (Elt Ideal)) :
    StableHlo.after (hostOps3 (F := Ideal)) W (Proc.devRef .tc main_v58) = shapeCast S1x128 (W (Proc.devRef .tc main_arg5)) Facts₀.shapeCasts_S128_S1x128 := by
  dsimp only [hostOps3]
  after_results_simp
  rfl

theorem host3_keep_v1 (W : Valuation τ sig (Elt Ideal)) :
    StableHlo.after (hostOps3 (F := Ideal)) W (Proc.devRef .tc main_v1) = W (Proc.devRef .tc main_v1) := by
  dsimp only [hostOps3]
  after_results_simp

theorem host3_keep_v3 (W : Valuation τ sig (Elt Ideal)) :
    StableHlo.after (hostOps3 (F := Ideal)) W (Proc.devRef .tc main_v3) = W (Proc.devRef .tc main_v3) := by
  dsimp only [hostOps3]
  after_results_simp

theorem host3_keep_v27 (W : Valuation τ sig (Elt Ideal)) :
    StableHlo.after (hostOps3 (F := Ideal)) W (Proc.devRef .tc main_v27) = W (Proc.devRef .tc main_v27) := by
  dsimp only [hostOps3]
  after_results_simp

theorem host3_keep_arg6 (W : Valuation τ sig (Elt Ideal)) :
    StableHlo.after (hostOps3 (F := Ideal)) W (Proc.devRef .tc main_arg6) = W (Proc.devRef .tc main_arg6) := by
  dsimp only [hostOps3]
  after_results_simp

theorem host3_keep_arg7 (W : Valuation τ sig (Elt Ideal)) :
    StableHlo.after (hostOps3 (F := Ideal)) W (Proc.devRef .tc main_arg7) = W (Proc.devRef .tc main_arg7) := by
  dsimp only [hostOps3]
  after_results_simp

/-! ## After region 4: the third layer's message passing -/

set_option maxHeartbeats 1000000 in
theorem host5_v73 (W : Valuation τ sig (Elt Ideal)) :
    StableHlo.after (hostOps5 (F := Ideal)) W (Proc.devRef .tc main_v73)
      = Cert.Gcn.agg64 (W (Proc.devRef .tc main_v60)) (W (Proc.devRef .tc main_v1)) (W (Proc.devRef .tc main_v3)) (W (Proc.devRef .tc main_v27)) := by
  dsimp only [hostOps5]
  after_results_simp
  rfl

theorem host5_v74 (W : Valuation τ sig (Elt Ideal)) :
    StableHlo.after (hostOps5 (F := Ideal)) W (Proc.devRef .tc main_v74) = shapeCast S1x64 (W (Proc.devRef .tc main_arg7)) Facts₀.shapeCasts_S64_S1x64 := by
  dsimp only [hostOps5]
  after_results_simp
  rfl

end Cert.KernelIdeal.HostK

end
-- ==== Proof.RegionMM.lean ====
/-
  What the three dense-product regions leave in their result arrays.
  Each region runs its body at 10 grid points; point t reads rows 10000·t … 10000·t + 9999 of the left operand and the whole
  right operand, and writes the same rows of the result. The ten row blocks tile the result, so the array ends holding the
  dense product of the arrays the region found.
-/
import proofs.«416586_j33998961116038_2_alg».proof.Proof.Spec
import proofs.«416586_j33998961116038_2_alg».proof.Proof.Dense
import proofs.«416586_j33998961116038_2_alg».proof.Proof.Gen.KernelIdeal.Frame
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer access, as the constant function. -/
private theorem hz : (![0, 0] : Fin 2 → Nat) = fun _ => 0 := funext fun a => by fin_cases a <;> rfl

/-! ## Region 0: the first layer's product -/

/-- At grid point t the left operand's window and the result's window both sit at row block t, column block 0, and the
    right operand's window stays at its one block (the index maps evaluated at each of the ten points). -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a row block with the weights, at any index y of the block: Σₖ xb[y₀,k] · w[k,y₁]. -/
private theorem pay0_at (xb : Vec Ideal S10000x128 .f32) (w : Vec Ideal S128x128 .f32) (y : S10000x128.Idx) :
    k0_pay1 (F := Ideal) xb w y
      = ∑ k : Fin 128, xb (ix2 (n0 := 10000) (n1 := 128) (y 0) k) * w (ix2 (n0 := 128) (n1 := 128) k (y 1)) := by
  obtain ⟨p, q, rfl⟩ : ∃ (p : Fin 10000) (q : Fin 128), y = ix2 p q := ⟨y 0, y 1, eq_ix2 y⟩
  exact Cert.Gcn.k0_pay1_apply xb w p q

/-- What point t writes back is row block t of the dense product of the two operand arrays: entry (p, q) of the block is
    Σₖ x[10000·t + p, k] · w[k, q], because the left block's entry (p, k) is the array's entry (10000·t + p, k) and the
    right block is the whole weight array. -/
private theorem flushed0_eq (c : Dev nD) (t : Fin cfg0.N) :
    (dat0 (F := Ideal) V c).flushed 2 t
      = ((cfg0.win 2).blk t).view.read (Elt Ideal) (Cert.Gcn.dense128 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts0 t
  funext j
  show k0_pay1 (F := Ideal) (iblk0 V c 0 t) (iblk0 V c 1 t) j
    = Cert.Gcn.dense128 (V c main_arg0) (V c main_arg2) (((cfg0.win 2).blk t).view.emb j)
  rw [pay0_at]
  unfold Cert.Gcn.dense128
  refine Finset.sum_congr rfl fun k _ => ?_
  have hj0 : (j 0).val < 10000 := (j 0).isLt
  have hj1 : (j 1).val < 128 := (j 1).isLt
  have hk : k.val < 128 := k.isLt
  -- the left block's entry (j₀, k) is the array's entry (10000·t + j₀, k)
  have hx : iblk0 V c 0 t (ix2 (n0 := 10000) (n1 := 128) (j 0) k)
      = V c main_arg0 (ix2 (n0 := 100000) (n1 := 128) (((cfg0.win 2).blk t).view.emb j 0) k) := by
    show V c main_arg0 (((cfg0.win 0).blk t).view.emb (ix2 (n0 := 10000) (n1 := 128) (j 0) k)) = _
    congr 1
    funext a; apply Fin.ext
    match a with
    | ⟨0, _⟩ =>
      show win0_0.index t (0 : Fin 2) * 10000 + 1 * (j 0).val = win0_2.index t (0 : Fin 2) * 10000 + 1 * (j 0).val
      omega
    | ⟨1, _⟩ => show win0_0.index t (1 : Fin 2) * 128 + 1 * k.val = k.val; omega
  -- the right block's entry (k, j₁) is the array's entry (k, j₁)
  have hw : iblk0 V c 1 t (ix2 (n0 := 128) (n1 := 128) k (j 1))
      = V c main_arg2 (ix2 (n0 := 128) (n1 := 128) k (((cfg0.win 2).blk t).view.emb j 1)) := by
    show V c main_arg2 (((cfg0.win 1).blk t).view.emb (ix2 (n0 := 128) (n1 := 128) k (j 1))) = _
    congr 1
    funext a; apply Fin.ext
    match a with
    | ⟨0, _⟩ => show win0_1.index t (0 : Fin 2) * 128 + 1 * k.val = k.val; omega
    | ⟨1, _⟩ =>
      show win0_1.index t (1 : Fin 2) * 128 + 1 * (j 1).val = win0_2.index t (1 : Fin 2) * 128 + 1 * (j 1).val
      omega
  rw [hx, hw]

/-- An index of the result array lies in point t's block iff each coordinate lies in the block's range on its axis. -/
private theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v28).slice (win0_2.rect t)).set ↔ _
  rw [View.set_slice_whole, Rect.mem_set_unit]
  exact Iff.rfl

/-- The ten row blocks tile the result: row r lies in the block of point r / 10000, and every column lies in the one
    column block. -/
private theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < grid0.N := by rw [N_0]; omega
  refine ⟨⟨(i 0).val / 10000, hN⟩, flush0_2 _, ?_⟩
  obtain ⟨e00, e01, e10, e11, e20, e21⟩ := idx_facts0 ⟨(i 0).val / 10000, hN⟩
  rw [mem_blk0]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e21]; omega

/-- Region 0 (first layer's product): the result array is the dense product of the two operand arrays as the region finds them. -/
theorem region0_value (c : Dev nD) :
    (dat0 (F := Ideal) V c).arrAt 2 cfg0.N = Cert.Gcn.dense128 (V c main_arg0) (V c main_arg2) :=
  (dat0 (F := Ideal) V c).arrAt_eq_of_cover 2 (Cert.Gcn.dense128 (V c main_arg0) (V c main_arg2))
    (fun t _ => flushed0_eq V c t) cover0

/-! ## Region 2: the second layer's product -/

/-- At grid point t the left operand's window and the result's window both sit at row block t, column block 0, and the
    right operand's window stays at its one block (the index maps evaluated at each of the ten points). -/
private theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product of a row block with the weights, at any index y of the block: Σₖ xb[y₀,k] · w[k,y₁]. -/
private theorem pay2_at (xb : Vec Ideal S10000x128 .f32) (w : Vec Ideal S128x128 .f32) (y : S10000x128.Idx) :
    k2_pay1 (F := Ideal) xb w y
      = ∑ k : Fin 128, xb (ix2 (n0 := 10000) (n1 := 128) (y 0) k) * w (ix2 (n0 := 128) (n1 := 128) k (y 1)) := by
  obtain ⟨p, q, rfl⟩ : ∃ (p : Fin 10000) (q : Fin 128), y = ix2 p q := ⟨y 0, y 1, eq_ix2 y⟩
  exact Cert.Gcn.k2_pay1_apply xb w p q

/-- What point t writes back is row block t of the dense product of the two operand arrays: entry (p, q) of the block is
    Σₖ x[10000·t + p, k] · w[k, q], because the left block's entry (p, k) is the array's entry (10000·t + p, k) and the
    right block is the whole weight array. -/
private theorem flushed2_eq (c : Dev nD) (t : Fin cfg2.N) :
    (dat2 (F := Ideal) V c).flushed 2 t
      = ((cfg2.win 2).blk t).view.read (Elt Ideal) (Cert.Gcn.dense128 (V c main_v43) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e00, e01, e10, e11, e20, e21⟩ := idx_facts2 t
  funext j
  show k2_pay1 (F := Ideal) (iblk2 V c 0 t) (iblk2 V c 1 t) j
    = Cert.Gcn.dense128 (V c main_v43) (V c main_arg4) (((cfg2.win 2).blk t).view.emb j)
  rw [pay2_at]
  unfold Cert.Gcn.dense128
  refine Finset.sum_congr rfl fun k _ => ?_
  have hj0 : (j 0).val < 10000 := (j 0).isLt
  have hj1 : (j 1).val < 128 := (j 1).isLt
  have hk : k.val < 128 := k.isLt
  -- the left block's entry (j₀, k) is the array's entry (10000·t + j₀, k)
  have hx : iblk2 V c 0 t (ix2 (n0 := 10000) (n1 := 128) (j 0) k)
      = V c main_v43 (ix2 (n0 := 100000) (n1 := 128) (((cfg2.win 2).blk t).view.emb j 0) k) := by
    show V c main_v43 (((cfg2.win 0).blk t).view.emb (ix2 (n0 := 10000) (n1 := 128) (j 0) k)) = _
    congr 1
    funext a; apply Fin.ext
    match a with
    | ⟨0, _⟩ =>
      show win2_0.index t (0 : Fin 2) * 10000 + 1 * (j 0).val = win2_2.index t (0 : Fin 2) * 10000 + 1 * (j 0).val
      omega
    | ⟨1, _⟩ => show win2_0.index t (1 : Fin 2) * 128 + 1 * k.val = k.val; omega
  -- the right block's entry (k, j₁) is the array's entry (k, j₁)
  have hw : iblk2 V c 1 t (ix2 (n0 := 128) (n1 := 128) k (j 1))
      = V c main_arg4 (ix2 (n0 := 128) (n1 := 128) k (((cfg2.win 2).blk t).view.emb j 1)) := by
    show V c main_arg4 (((cfg2.win 1).blk t).view.emb (ix2 (n0 := 128) (n1 := 128) k (j 1))) = _
    congr 1
    funext a; apply Fin.ext
    match a with
    | ⟨0, _⟩ => show win2_1.index t (0 : Fin 2) * 128 + 1 * k.val = k.val; omega
    | ⟨1, _⟩ =>
      show win2_1.index t (1 : Fin 2) * 128 + 1 * (j 1).val = win2_2.index t (1 : Fin 2) * 128 + 1 * (j 1).val
      omega
  rw [hx, hw]

/-- An index of the result array lies in point t's block iff each coordinate lies in the block's range on its axis. -/
private theorem mem_blk2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v44).slice (win2_2.rect t)).set ↔ _
  rw [View.set_slice_whole, Rect.mem_set_unit]
  exact Iff.rfl

/-- The ten row blocks tile the result: row r lies in the block of point r / 10000, and every column lies in the one
    column block. -/
private theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 10000 < grid2.N := by rw [N_2]; omega
  refine ⟨⟨(i 0).val / 10000, hN⟩, flush2_2 _, ?_⟩
  obtain ⟨e00, e01, e10, e11, e20, e21⟩ := idx_facts2 ⟨(i 0).val / 10000, hN⟩
  rw [mem_blk2]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e20]
    show (i 0).val / 10000 * 10000 ≤ (i 0).val ∧ (i 0).val < (i 0).val / 10000 * 10000 + 10000
    omega
  | ⟨1, _⟩ =>
    show win2_2.index ⟨(i 0).val / 10000, hN⟩ (1 : Fin 2) * 128 ≤ (i 1).val
      ∧ (i 1).val < win2_2.index ⟨(i 0).val / 10000, hN⟩ (1 : Fin 2) * 128 + 128
    rw [e21]; omega

/-- Region 2 (second layer's product). -/
theorem region2_value (c : Dev nD) :
    (dat2 (F := Ideal) V c).arrAt 2 cfg2.N = Cert.Gcn.dense128 (V c main_v43) (V c main_arg4) :=
  (dat2 (F := Ideal) V c).arrAt_eq_of_cover 2 (Cert.Gcn.dense128 (V c main_v43) (V c main_arg4))
    (fun t _ => flushed2_eq V c t) cover2

/-! ## Region 4: the third layer's product, 64 columns -/

/-- At grid point t the left operand's window and the result's window both sit at row block t, column block 0, and the
    right operand's window stays at its one block (the index maps evaluated at each of the ten points). -/
private theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's product of a row block with the weights, at any index y of the block: Σₖ xb[y₀,k] · w[k,y₁]. -/
private theorem pay4_at (xb : Vec Ideal S10000x128 .f32) (w : Vec Ideal S128x64 .f32) (y : S10000x64.Idx) :
    k4_pay1 (F := Ideal) xb w y
      = ∑ k : Fin 128, xb (ix2 (n0 := 10000) (n1 := 128) (y 0) k) * w (ix2 (n0 := 128) (n1 := 64) k (y 1)) := by
  obtain ⟨p, q, rfl⟩ : ∃ (p : Fin 10000) (q : Fin 64), y = ix2 p q := ⟨y 0, y 1, eq_ix2 y⟩
  exact Cert.Gcn.k4_pay1_apply xb w p q

/-- What point t writes back is row block t of the dense product of the two operand arrays: entry (p, q) of the block is
    Σₖ x[10000·t + p, k] · w[k, q], because the left block's entry (p, k) is the array's entry (10000·t + p, k) and the
    right block is the whole weight array. -/
private theorem flushed4_eq (c : Dev nD) (t : Fin cfg4.N) :
    (dat4 (F := Ideal) V c).flushed 2 t
      = ((cfg4.win 2).blk t).view.read (Elt Ideal) (Cert.Gcn.dense64 (V c main_v59) (V c main_arg6)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x64) hz]
  obtain ⟨e00, e01, e10, e11, e20, e21⟩ := idx_facts4 t
  funext j
  show k4_pay1 (F := Ideal) (iblk4 V c 0 t) (iblk4 V c 1 t) j
    = Cert.Gcn.dense64 (V c main_v59) (V c main_arg6) (((cfg4.win 2).blk t).view.emb j)
  rw [pay4_at]
  unfold Cert.Gcn.dense64
  refine Finset.sum_congr rfl fun k _ => ?_
  have hj0 : (j 0).val < 10000 := (j 0).isLt
  have hj1 : (j 1).val < 64 := (j 1).isLt
  have hk : k.val < 128 := k.isLt
  -- the left block's entry (j₀, k) is the array's entry (10000·t + j₀, k)
  have hx : iblk4 V c 0 t (ix2 (n0 := 10000) (n1 := 128) (j 0) k)
      = V c main_v59 (ix2 (n0 := 100000) (n1 := 128) (((cfg4.win 2).blk t).view.emb j 0) k) := by
    show V c main_v59 (((cfg4.win 0).blk t).view.emb (ix2 (n0 := 10000) (n1 := 128) (j 0) k)) = _
    congr 1
    funext a; apply Fin.ext
    match a with
    | ⟨0, _⟩ =>
      show win4_0.index t (0 : Fin 2) * 10000 + 1 * (j 0).val = win4_2.index t (0 : Fin 2) * 10000 + 1 * (j 0).val
      omega
    | ⟨1, _⟩ => show win4_0.index t (1 : Fin 2) * 128 + 1 * k.val = k.val; omega
  -- the right block's entry (k, j₁) is the array's entry (k, j₁)
  have hw : iblk4 V c 1 t (ix2 (n0 := 128) (n1 := 64) k (j 1))
      = V c main_arg6 (ix2 (n0 := 128) (n1 := 64) k (((cfg4.win 2).blk t).view.emb j 1)) := by
    show V c main_arg6 (((cfg4.win 1).blk t).view.emb (ix2 (n0 := 128) (n1 := 64) k (j 1))) = _
    congr 1
    funext a; apply Fin.ext
    match a with
    | ⟨0, _⟩ => show win4_1.index t (0 : Fin 2) * 128 + 1 * k.val = k.val; omega
    | ⟨1, _⟩ =>
      show win4_1.index t (1 : Fin 2) * 64 + 1 * (j 1).val = win4_2.index t (1 : Fin 2) * 64 + 1 * (j 1).val
      omega
  rw [hx, hw]

/-- An index of the result array lies in point t's block iff each coordinate lies in the block's range on its axis. -/
private theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v60).slice (win4_2.rect t)).set ↔ _
  rw [View.set_slice_whole, Rect.mem_set_unit]
  exact Iff.rfl

/-- The ten row blocks tile the result: row r lies in the block of point r / 10000, and every column lies in the one
    column block. -/
private theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 10000 < grid4.N := by rw [N_4]; omega
  refine ⟨⟨(i 0).val / 10000, hN⟩, flush4_2 _, ?_⟩
  obtain ⟨e00, e01, e10, e11, e20, e21⟩ := idx_facts4 ⟨(i 0).val / 10000, hN⟩
  rw [mem_blk4]
  intro a
  match a with
  | ⟨0, _⟩ =>
    show win4_2.index ⟨(i 0).val / 10000, hN⟩ (0 : Fin 2) * 10000 ≤ (i 0).val
      ∧ (i 0).val < win4_2.index ⟨(i 0).val / 10000, hN⟩ (0 : Fin 2) * 10000 + 10000
    rw [e20]
    show (i 0).val / 10000 * 10000 ≤ (i 0).val ∧ (i 0).val < (i 0).val / 10000 * 10000 + 10000
    omega
  | ⟨1, _⟩ =>
    show win4_2.index ⟨(i 0).val / 10000, hN⟩ (1 : Fin 2) * 64 ≤ (i 1).val
      ∧ (i 1).val < win4_2.index ⟨(i 0).val / 10000, hN⟩ (1 : Fin 2) * 64 + 64
    rw [e21]; omega

/-- Region 4 (third layer's product, 64 columns). -/
theorem region4_value (c : Dev nD) :
    (dat4 (F := Ideal) V c).arrAt 2 cfg4.N = Cert.Gcn.dense64 (V c main_v59) (V c main_arg6) :=
  (dat4 (F := Ideal) V c).arrAt_eq_of_cover 2 (Cert.Gcn.dense64 (V c main_v59) (V c main_arg6))
    (fun t _ => flushed4_eq V c t) cover4

end Cert.KernelIdeal.Regions

end
-- ==== Proof.RegionBR.lean ====
/-
  What the three bias regions leave in their result arrays.
  Each region runs a pointwise body at 10 grid points; point t reads rows 10000·t … 10000·t + 9999 of the aggregated features
  and the whole one-row bias, and writes the same rows of the result: the row plus the bias, and in the first two layers
  the maximum of that with zero. The ten row blocks tile the result.
-/
import proofs.«416586_j33998961116038_2_alg».proof.Proof.Spec
import proofs.«416586_j33998961116038_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Regions

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-! ## The bodies at an entry -/

/-- The offsets of a whole-buffer access, as the constant zero function. -/
private theorem zero_offsets : (![0, 0] : Fin 2 → Nat) = fun _ => 0 :=
  funext fun a => by match a with | ⟨0, _⟩ => rfl | ⟨1, _⟩ => rfl

/-- The first layer's body at row p, column j: the row block's entry plus the bias row's entry at column j, then the
    maximum of that with zero. -/
private theorem pay1_apply (xb : Vec Ideal S10000x128 .f32) (bb : Vec Ideal S1x128 .f32) (p : Fin 10000) (j : Fin 128) :
    k1_pay1 (F := Ideal) xb bb (ix2 p j) = max (xb (ix2 p j) + bb (ix2 0 j)) (Ideal.ofBits .f32 0x00000000#32) := by
  unfold k1_pay1
  show max (shapeCast S10000x128 xb shapeCasts_S10000x128_S10000x128 (ix2 p j) + broadcastTo S10000x128 (shapeCast S1x128 bb shapeCasts_S1x128_S1x128) broadcasts_S1x128_S10000x128 (ix2 p j)) _ = _
  rw [shapeCast_self, shapeCast_self]
  rw [broadcastTo_apply bb broadcasts_S1x128_S10000x128 (ix2 p j) (ix2 0 j) (fun a => by match a with | ⟨0, _⟩ => rfl | ⟨1, _⟩ => rfl)]
  rfl

/-- The second layer's body at row p, column j: the same function. -/
private theorem pay3_apply (xb : Vec Ideal S10000x128 .f32) (bb : Vec Ideal S1x128 .f32) (p : Fin 10000) (j : Fin 128) :
    k3_pay1 (F := Ideal) xb bb (ix2 p j) = max (xb (ix2 p j) + bb (ix2 0 j)) (Ideal.ofBits .f32 0x00000000#32) := by
  unfold k3_pay1
  show max (shapeCast S10000x128 xb shapeCasts_S10000x128_S10000x128 (ix2 p j) + broadcastTo S10000x128 (shapeCast S1x128 bb shapeCasts_S1x128_S1x128) broadcasts_S1x128_S10000x128 (ix2 p j)) _ = _
  rw [shapeCast_self, shapeCast_self]
  rw [broadcastTo_apply bb broadcasts_S1x128_S10000x128 (ix2 p j) (ix2 0 j) (fun a => by match a with | ⟨0, _⟩ => rfl | ⟨1, _⟩ => rfl)]
  rfl

/-- The third layer's body at row p, column j (64 columns): the row block's entry plus the bias row's entry at column j. -/
private theorem pay5_apply (xb : Vec Ideal S10000x64 .f32) (bb : Vec Ideal S1x64 .f32) (p : Fin 10000) (j : Fin 64) :
    k5_pay1 (F := Ideal) xb bb (ix2 p j) = xb (ix2 p j) + bb (ix2 0 j) := by
  unfold k5_pay1
  show shapeCast S10000x64 xb shapeCasts_S10000x64_S10000x64 (ix2 p j) + broadcastTo S10000x64 (shapeCast S1x64 bb shapeCasts_S1x64_S1x64) broadcasts_S1x64_S10000x64 (ix2 p j) = _
  rw [shapeCast_self, shapeCast_self]
  rw [broadcastTo_apply bb broadcasts_S1x64_S10000x64 (ix2 p j) (ix2 0 j) (fun a => by match a with | ⟨0, _⟩ => rfl | ⟨1, _⟩ => rfl)]

/-! ## Region 1 -/

/-- The block indices over the ten points: the feature block sits where the result block sits, the bias block is
    block (0, 0), and the result block of point t is row block t, column block 0. -/
private theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Point t writes back rows 10000·t … 10000·t + 9999 of the whole-array function: at row p, column q of the block the
    body adds the feature entry (10000·t + p, q) and the bias entry (0, q). -/
private theorem flushed1_eq (c : Dev nD) (t : Fin cfg1.N) :
    (dat1 (F := Ideal) V c).flushed 2 t = ((cfg1.win 2).blk t).view.read (Elt Ideal) (Cert.Gcn.rowBiasRelu128 (V c main_v41) (V c main_v42)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := idx_facts1 t
  refine funext fun (y : S10000x128.Idx) => ?_
  obtain ⟨p, q, rfl⟩ : ∃ (p : Fin 10000) (q : Fin 128), y = ix2 p q := ⟨y 0, y 1, eq_ix2 y⟩
  show k1_pay1 (iblk1 V c 0 t) (iblk1 V c 1 t) (ix2 p q) = Cert.Gcn.rowBiasRelu128 (V c main_v41) (V c main_v42) (((cfg1.win 2).blk t).view.emb (ix2 p q))
  rw [pay1_apply]
  unfold Cert.Gcn.rowBiasRelu128
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 0 q) = ix2 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have hA : iblk1 V c 0 t (ix2 p q) = V c main_v41 (((cfg1.win 2).blk t).view.emb (ix2 p q)) := congrArg (V c main_v41) h0
  have hB : iblk1 V c 1 t (ix2 0 q) = V c main_v42 (ix2 0 ((((cfg1.win 2).blk t).view.emb (ix2 p q)) 1)) := congrArg (V c main_v42) h1
  rw [hA, hB]

/-- An entry of the result array lies in point t's block iff each coordinate lies in the block's range on its axis. -/
private theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v43).slice (win1_2.rect t)).set ↔ _
  rw [View.set_slice_whole, Rect.mem_set_unit]
  exact Iff.rfl

/-- Row r of the result lies in the block of point r / 10000: the ten row blocks tile the array. -/
private theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  have hlt : (i 0).val / 10000 < grid1.N := by omega
  obtain ⟨e0, e1, e2, e3, e4, e5⟩ := idx_facts1 ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_blk1]
  intro a
  match a with
  | ⟨0, _⟩ => show win1_2.index ⟨(i 0).val / 10000, hlt⟩ (0 : Fin 2) * 10000 ≤ (i 0).val ∧ (i 0).val < win1_2.index ⟨(i 0).val / 10000, hlt⟩ (0 : Fin 2) * 10000 + 10000; omega
  | ⟨1, _⟩ => show win1_2.index ⟨(i 0).val / 10000, hlt⟩ (1 : Fin 2) * 128 ≤ (i 1).val ∧ (i 1).val < win1_2.index ⟨(i 0).val / 10000, hlt⟩ (1 : Fin 2) * 128 + 128; omega

/-- Region 1 (first layer's bias and maximum with zero). -/
theorem region1_value (c : Dev nD) :
    (dat1 (F := Ideal) V c).arrAt 2 cfg1.N = Cert.Gcn.rowBiasRelu128 (V c main_v41) (V c main_v42) :=
  (dat1 V c).arrAt_eq_of_cover 2 (Cert.Gcn.rowBiasRelu128 (V c main_v41) (V c main_v42)) (fun t _ => flushed1_eq V c t) cover1

/-! ## Region 3 -/

/-- The block indices over the ten points of the second layer's region: the feature block sits where the result block
    sits, the bias block is block (0, 0), and the result block of point t is row block t, column block 0. -/
private theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Point t writes back rows 10000·t … 10000·t + 9999 of the whole-array function of the second layer's two arrays. -/
private theorem flushed3_eq (c : Dev nD) (t : Fin cfg3.N) :
    (dat3 (F := Ideal) V c).flushed 2 t = ((cfg3.win 2).blk t).view.read (Elt Ideal) (Cert.Gcn.rowBiasRelu128 (V c main_v57) (V c main_v58)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := idx_facts3 t
  refine funext fun (y : S10000x128.Idx) => ?_
  obtain ⟨p, q, rfl⟩ : ∃ (p : Fin 10000) (q : Fin 128), y = ix2 p q := ⟨y 0, y 1, eq_ix2 y⟩
  show k3_pay1 (iblk3 V c 0 t) (iblk3 V c 1 t) (ix2 p q) = Cert.Gcn.rowBiasRelu128 (V c main_v57) (V c main_v58) (((cfg3.win 2).blk t).view.emb (ix2 p q))
  rw [pay3_apply]
  unfold Cert.Gcn.rowBiasRelu128
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  have h1 : ((cfg3.win 1).blk t).view.emb (ix2 0 q) = ix2 0 ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  have hA : iblk3 V c 0 t (ix2 p q) = V c main_v57 (((cfg3.win 2).blk t).view.emb (ix2 p q)) := congrArg (V c main_v57) h0
  have hB : iblk3 V c 1 t (ix2 0 q) = V c main_v58 (ix2 0 ((((cfg3.win 2).blk t).view.emb (ix2 p q)) 1)) := congrArg (V c main_v58) h1
  rw [hA, hB]

/-- An entry of the second layer's result array lies in point t's block iff each coordinate lies in the block's range. -/
private theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v59).slice (win3_2.rect t)).set ↔ _
  rw [View.set_slice_whole, Rect.mem_set_unit]
  exact Iff.rfl

/-- Row r of the second layer's result lies in the block of point r / 10000. -/
private theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 10 := N_3
  have hlt : (i 0).val / 10000 < grid3.N := by omega
  obtain ⟨e0, e1, e2, e3, e4, e5⟩ := idx_facts3 ⟨(i 0).val / 10000, hlt⟩
  have e4' : win3_2.index ⟨(i 0).val / 10000, hlt⟩ (0 : Fin 2) = (i 0).val / 10000 := e4
  refine ⟨⟨(i 0).val / 10000, hlt⟩, flush3_2 _, ?_⟩
  rw [mem_blk3]
  intro a
  match a with
  | ⟨0, _⟩ => show win3_2.index ⟨(i 0).val / 10000, hlt⟩ (0 : Fin 2) * 10000 ≤ (i 0).val ∧ (i 0).val < win3_2.index ⟨(i 0).val / 10000, hlt⟩ (0 : Fin 2) * 10000 + 10000; omega
  | ⟨1, _⟩ => show win3_2.index ⟨(i 0).val / 10000, hlt⟩ (1 : Fin 2) * 128 ≤ (i 1).val ∧ (i 1).val < win3_2.index ⟨(i 0).val / 10000, hlt⟩ (1 : Fin 2) * 128 + 128; omega

/-- Region 3 (second layer's bias and maximum with zero). -/
theorem region3_value (c : Dev nD) :
    (dat3 (F := Ideal) V c).arrAt 2 cfg3.N = Cert.Gcn.rowBiasRelu128 (V c main_v57) (V c main_v58) :=
  (dat3 V c).arrAt_eq_of_cover 2 (Cert.Gcn.rowBiasRelu128 (V c main_v57) (V c main_v58)) (fun t _ => flushed3_eq V c t) cover3

/-! ## Region 5 -/

/-- The block indices over the ten points of the third layer's region (64 columns): the feature block sits where the
    result block sits, the bias block is block (0, 0), and the result block of point t is row block t, column block 0. -/
private theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Point t writes back rows 10000·t … 10000·t + 9999 of the whole-array function of the third layer's two arrays: at
    row p, column q of the block the body adds the feature entry (10000·t + p, q) and the bias entry (0, q). -/
private theorem flushed5_eq (c : Dev nD) (t : Fin cfg5.N) :
    (dat5 (F := Ideal) V c).flushed 2 t = ((cfg5.win 2).blk t).view.read (Elt Ideal) (Cert.Gcn.rowBias64 (V c main_v73) (V c main_v74)) := by
  show (cfg5.win 2).cut (grid5.coords t) ((dat5 V c).after 2 t) = _
  rw [after5_2]
  unfold out5_2
  rw [View.canon_unit_zero zero_offsets]
  simp only [View.ld_unit_zero (S := S10000x64) zero_offsets, View.ld_unit_zero (S := S1x64) zero_offsets]
  obtain ⟨e0, e1, e2, e3, e4, e5⟩ := idx_facts5 t
  refine funext fun (y : S10000x64.Idx) => ?_
  obtain ⟨p, q, rfl⟩ : ∃ (p : Fin 10000) (q : Fin 64), y = ix2 p q := ⟨y 0, y 1, eq_ix2 y⟩
  show k5_pay1 (iblk5 V c 0 t) (iblk5 V c 1 t) (ix2 p q) = Cert.Gcn.rowBias64 (V c main_v73) (V c main_v74) (((cfg5.win 2).blk t).view.emb (ix2 p q))
  rw [pay5_apply]
  unfold Cert.Gcn.rowBias64
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 64 + 1 * q.val = win5_2.index t (1 : Fin 2) * 64 + 1 * q.val; omega
  have h1 : ((cfg5.win 1).blk t).view.emb (ix2 0 q) = ix2 0 ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 64 + 1 * q.val = win5_2.index t (1 : Fin 2) * 64 + 1 * q.val; omega
  have hA : iblk5 V c 0 t (ix2 p q) = V c main_v73 (((cfg5.win 2).blk t).view.emb (ix2 p q)) := congrArg (V c main_v73) h0
  have hB : iblk5 V c 1 t (ix2 0 q) = V c main_v74 (ix2 0 ((((cfg5.win 2).blk t).view.emb (ix2 p q)) 1)) := congrArg (V c main_v74) h1
  rw [hA, hB]

/-- An entry of the third layer's result array lies in point t's block iff each coordinate lies in the block's range. -/
private theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v75).slice (win5_2.rect t)).set ↔ _
  rw [View.set_slice_whole, Rect.mem_set_unit]
  exact Iff.rfl

/-- Row r of the third layer's result lies in the block of point r / 10000. -/
private theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 10 := N_5
  have hlt : (i 0).val / 10000 < grid5.N := by omega
  obtain ⟨e0, e1, e2, e3, e4, e5⟩ := idx_facts5 ⟨(i 0).val / 10000, hlt⟩
  have e4' : win5_2.index ⟨(i 0).val / 10000, hlt⟩ (0 : Fin 2) = (i 0).val / 10000 := e4
  refine ⟨⟨(i 0).val / 10000, hlt⟩, flush5_2 _, ?_⟩
  rw [mem_blk5]
  intro a
  match a with
  | ⟨0, _⟩ => show win5_2.index ⟨(i 0).val / 10000, hlt⟩ (0 : Fin 2) * 10000 ≤ (i 0).val ∧ (i 0).val < win5_2.index ⟨(i 0).val / 10000, hlt⟩ (0 : Fin 2) * 10000 + 10000; omega
  | ⟨1, _⟩ => show win5_2.index ⟨(i 0).val / 10000, hlt⟩ (1 : Fin 2) * 64 ≤ (i 1).val ∧ (i 1).val < win5_2.index ⟨(i 0).val / 10000, hlt⟩ (1 : Fin 2) * 64 + 64; omega

/-- Region 5 (third layer's bias). -/
theorem region5_value (c : Dev nD) :
    (dat5 (F := Ideal) V c).arrAt 2 cfg5.N = Cert.Gcn.rowBias64 (V c main_v73) (V c main_v74) :=
  (dat5 V c).arrAt_eq_of_cover 2 (Cert.Gcn.rowBias64 (V c main_v73) (V c main_v74)) (fun t _ => flushed5_eq V c t) cover5

/-! ## The bias row as a reshaped vector -/

/-- A bias vector reshaped to one row and read as a row is the bias vector: 128 columns. -/
theorem rowBiasRelu128_reshape (a : FVec Ideal S100000x128 .f32) (b : FVec Ideal S128 .f32) :
    Cert.Gcn.rowBiasRelu128 a (shapeCast S1x128 b Facts₀.shapeCasts_S128_S1x128) = Cert.Gcn.biasRelu128 a b := by
  funext i
  unfold Cert.Gcn.rowBiasRelu128 Cert.Gcn.biasRelu128
  rw [shapeCast_apply b Facts₀.shapeCasts_S128_S1x128 (ix2 (n0 := 1) (n1 := 128) 0 (i 1)) (ix1 (n := 128) (i 1)) (by
    rw [Shape.rowMajor_val_two, Shape.rowMajor_val_one]
    show (i 1).val = 0 * 128 + (i 1).val
    omega)]

/-- The same at 64 columns, without the maximum. -/
theorem rowBias64_reshape (a : FVec Ideal S100000x64 .f32) (b : FVec Ideal S64 .f32) :
    Cert.Gcn.rowBias64 a (shapeCast S1x64 b Facts₀.shapeCasts_S64_S1x64) = Cert.Gcn.bias64 a b := by
  funext i
  unfold Cert.Gcn.rowBias64 Cert.Gcn.bias64
  rw [shapeCast_apply b Facts₀.shapeCasts_S64_S1x64 (ix2 (n0 := 1) (n1 := 64) 0 (i 1)) (ix1 (n := 64) (i 1)) (by
    rw [Shape.rowMajor_val_two, Shape.rowMajor_val_one]
    show (i 1).val = 0 * 64 + (i 1).val
    omega)]

end Cert.KernelIdeal.Regions

end
-- ==== Proof.Assemble.lean ====
/-
  The kernel program's result array as the network of Spec.lean.
  The run's buffer contents are followed boundary by boundary: after the opening host stretch the edges' sources, targets and
  weights are in place; each dense-product region leaves the product of what it found; each host stretch between leaves the
  message passing over that product and the bias as one row; each bias region leaves the row-wise bias (with the maximum
  with zero in the first two layers). Buffers a segment does not write are carried unchanged. At the last boundary the
  result array holds the three-layer network of the launch contents of the eight arguments.
-/
import proofs.«416586_j33998961116038_2_alg».proof.Proof.Spec
import proofs.«416586_j33998961116038_2_alg».proof.Proof.KRun
import proofs.«416586_j33998961116038_2_alg».proof.Proof.HostK
import proofs.«416586_j33998961116038_2_alg».proof.Proof.RegionMM
import proofs.«416586_j33998961116038_2_alg».proof.Proof.RegionBR

set_option maxRecDepth 16384

noncomputable section

namespace Cert.KernelIdeal.Assemble

open Idealize.ShloMosaic Idealize.ShloMosaic.TcCoe Idealize.SL.Sem Idealize.ShloMosaic.StableHlo
open Cert.KernelIdeal Cert.KernelIdeal.Gen Cert.KernelIdeal.HostK Cert.KernelIdeal.Regions

variable (m : (ℓ : Loc nD τ sig) → Buf (Elt Ideal) ℓ) (ρ : Dev nD → PrngReg) (c : Dev nD)

/-! ## Boundaries 1, 2, 3: the opening host stretches -/

theorem L1_v1 : W1 m ρ c (Proc.devRef .tc main_v1) = (Cert.Gcn.srcOf (m ((c : Thread nD τ).loc main_arg1))) := h0_v1 (W0 m ρ c)
theorem L1_v3 : W1 m ρ c (Proc.devRef .tc main_v3) = (Cert.Gcn.dstOf (m ((c : Thread nD τ).loc main_arg1))) := h0_v3 (W0 m ρ c)
theorem L1_v9 : W1 m ρ c (Proc.devRef .tc main_v9) = cmpf .ogt (Cert.Gcn.degOf (Cert.Gcn.dstOf (m ((c : Thread nD τ).loc main_arg1)))) (broadcastInDim S100000 ![] Facts₀.bcast_S_S100000 (constant (F := Ideal) S_ .f32 0x00000000#32)) := h0_v9 (W0 m ρ c)
theorem L1_v11 : W1 m ρ c (Proc.devRef .tc main_v11) = Host.powf (Cert.Gcn.degOf (Cert.Gcn.dstOf (m ((c : Thread nD τ).loc main_arg1)))) (broadcastInDim S100000 ![] Facts₀.bcast_S_S100000 (constant (F := Ideal) S_ .f32 0xBF000000#32)) := h0_v11 (W0 m ρ c)
theorem L1_cst3 : W1 m ρ c (Proc.devRef .tc main_cst_3) = constant (F := Ideal) S_ .f32 0x00000000#32 := h0_cst3 (W0 m ρ c)
theorem L1_arg0 : W1 m ρ c (Proc.devRef .tc main_arg0) = (m ((c : Thread nD τ).loc main_arg0)) := h0_keep_arg0 (W0 m ρ c)
theorem L1_arg2 : W1 m ρ c (Proc.devRef .tc main_arg2) = (m ((c : Thread nD τ).loc main_arg2)) := h0_keep_arg2 (W0 m ρ c)
theorem L1_arg3 : W1 m ρ c (Proc.devRef .tc main_arg3) = (m ((c : Thread nD τ).loc main_arg3)) := h0_keep_arg3 (W0 m ρ c)
theorem L1_arg4 : W1 m ρ c (Proc.devRef .tc main_arg4) = (m ((c : Thread nD τ).loc main_arg4)) := h0_keep_arg4 (W0 m ρ c)
theorem L1_arg5 : W1 m ρ c (Proc.devRef .tc main_arg5) = (m ((c : Thread nD τ).loc main_arg5)) := h0_keep_arg5 (W0 m ρ c)
theorem L1_arg6 : W1 m ρ c (Proc.devRef .tc main_arg6) = (m ((c : Thread nD τ).loc main_arg6)) := h0_keep_arg6 (W0 m ρ c)
theorem L1_arg7 : W1 m ρ c (Proc.devRef .tc main_arg7) = (m ((c : Thread nD τ).loc main_arg7)) := h0_keep_arg7 (W0 m ρ c)

theorem L2_v12 : W2 m ρ c (Proc.devRef .tc main_v12) = Cert.Gcn.dinvOf (Cert.Gcn.degOf (Cert.Gcn.dstOf (m ((c : Thread nD τ).loc main_arg1)))) :=
  h01_v12 (W1 m ρ c) (Cert.Gcn.degOf (Cert.Gcn.dstOf (m ((c : Thread nD τ).loc main_arg1)))) (L1_v9 m ρ c) (L1_v11 m ρ c) (L1_cst3 m ρ c)
theorem L2_v1 : W2 m ρ c (Proc.devRef .tc main_v1) = (Cert.Gcn.srcOf (m ((c : Thread nD τ).loc main_arg1))) := (h01_keep_v1 (W1 m ρ c)).trans (L1_v1 m ρ c)
theorem L2_v3 : W2 m ρ c (Proc.devRef .tc main_v3) = (Cert.Gcn.dstOf (m ((c : Thread nD τ).loc main_arg1))) := (h01_keep_v3 (W1 m ρ c)).trans (L1_v3 m ρ c)
theorem L2_arg0 : W2 m ρ c (Proc.devRef .tc main_arg0) = (m ((c : Thread nD τ).loc main_arg0)) := (h01_keep_arg0 (W1 m ρ c)).trans (L1_arg0 m ρ c)
theorem L2_arg2 : W2 m ρ c (Proc.devRef .tc main_arg2) = (m ((c : Thread nD τ).loc main_arg2)) := (h01_keep_arg2 (W1 m ρ c)).trans (L1_arg2 m ρ c)
theorem L2_arg3 : W2 m ρ c (Proc.devRef .tc main_arg3) = (m ((c : Thread nD τ).loc main_arg3)) := (h01_keep_arg3 (W1 m ρ c)).trans (L1_arg3 m ρ c)
theorem L2_arg4 : W2 m ρ c (Proc.devRef .tc main_arg4) = (m ((c : Thread nD τ).loc main_arg4)) := (h01_keep_arg4 (W1 m ρ c)).trans (L1_arg4 m ρ c)
theorem L2_arg5 : W2 m ρ c (Proc.devRef .tc main_arg5) = (m ((c : Thread nD τ).loc main_arg5)) := (h01_keep_arg5 (W1 m ρ c)).trans (L1_arg5 m ρ c)
theorem L2_arg6 : W2 m ρ c (Proc.devRef .tc main_arg6) = (m ((c : Thread nD τ).loc main_arg6)) := (h01_keep_arg6 (W1 m ρ c)).trans (L1_arg6 m ρ c)
theorem L2_arg7 : W2 m ρ c (Proc.devRef .tc main_arg7) = (m ((c : Thread nD τ).loc main_arg7)) := (h01_keep_arg7 (W1 m ρ c)).trans (L1_arg7 m ρ c)

theorem L3_v27 : W3 m ρ c (Proc.devRef .tc main_v27) = (Cert.Gcn.nrmOf (Cert.Gcn.srcOf (m ((c : Thread nD τ).loc main_arg1))) (Cert.Gcn.dstOf (m ((c : Thread nD τ).loc main_arg1)))) :=
  (h02_v27 (W2 m ρ c) (Cert.Gcn.srcOf (m ((c : Thread nD τ).loc main_arg1))) (Cert.Gcn.dstOf (m ((c : Thread nD τ).loc main_arg1))) (Cert.Gcn.dinvOf (Cert.Gcn.degOf (Cert.Gcn.dstOf (m ((c : Thread nD τ).loc main_arg1))))) (L2_v1 m ρ c) (L2_v3 m ρ c) (L2_v12 m ρ c)).trans (nrm_fold (Cert.Gcn.srcOf (m ((c : Thread nD τ).loc main_arg1))) (Cert.Gcn.dstOf (m ((c : Thread nD τ).loc main_arg1))))
theorem L3_v1 : W3 m ρ c (Proc.devRef .tc main_v1) = (Cert.Gcn.srcOf (m ((c : Thread nD τ).loc main_arg1))) := (h02_keep_v1 (W2 m ρ c)).trans (L2_v1 m ρ c)
theorem L3_v3 : W3 m ρ c (Proc.devRef .tc main_v3) = (Cert.Gcn.dstOf (m ((c : Thread nD τ).loc main_arg1))) := (h02_keep_v3 (W2 m ρ c)).trans (L2_v3 m ρ c)
theorem L3_arg0 : W3 m ρ c (Proc.devRef .tc main_arg0) = (m ((c : Thread nD τ).loc main_arg0)) := (h02_keep_arg0 (W2 m ρ c)).trans (L2_arg0 m ρ c)
theorem L3_arg2 : W3 m ρ c (Proc.devRef .tc main_arg2) = (m ((c : Thread nD τ).loc main_arg2)) := (h02_keep_arg2 (W2 m ρ c)).trans (L2_arg2 m ρ c)
theorem L3_arg3 : W3 m ρ c (Proc.devRef .tc main_arg3) = (m ((c : Thread nD τ).loc main_arg3)) := (h02_keep_arg3 (W2 m ρ c)).trans (L2_arg3 m ρ c)
theorem L3_arg4 : W3 m ρ c (Proc.devRef .tc main_arg4) = (m ((c : Thread nD τ).loc main_arg4)) := (h02_keep_arg4 (W2 m ρ c)).trans (L2_arg4 m ρ c)
theorem L3_arg5 : W3 m ρ c (Proc.devRef .tc main_arg5) = (m ((c : Thread nD τ).loc main_arg5)) := (h02_keep_arg5 (W2 m ρ c)).trans (L2_arg5 m ρ c)
theorem L3_arg6 : W3 m ρ c (Proc.devRef .tc main_arg6) = (m ((c : Thread nD τ).loc main_arg6)) := (h02_keep_arg6 (W2 m ρ c)).trans (L2_arg6 m ρ c)
theorem L3_arg7 : W3 m ρ c (Proc.devRef .tc main_arg7) = (m ((c : Thread nD τ).loc main_arg7)) := (h02_keep_arg7 (W2 m ρ c)).trans (L2_arg7 m ρ c)

/-! ## Boundary 4: after region 0 (the first layer's product) -/

theorem L4_v28 : W4 m ρ c (Proc.devRef .tc main_v28) = (Cert.Gcn.dense128 (m ((c : Thread nD τ).loc main_arg0)) (m ((c : Thread nD τ).loc main_arg2))) :=
  (W4_arr m ρ c 2).trans ((region0_value (V3 m ρ) c).trans (by rw [show V3 m ρ c main_arg0 = _ from L3_arg0 m ρ c, show V3 m ρ c main_arg2 = _ from L3_arg2 m ρ c]))
theorem L4_v1 : W4 m ρ c (Proc.devRef .tc main_v1) = (Cert.Gcn.srcOf (m ((c : Thread nD τ).loc main_arg1))) := (W4_of_ne m ρ c main_v1 (by decide)).trans (L3_v1 m ρ c)
theorem L4_v3 : W4 m ρ c (Proc.devRef .tc main_v3) = (Cert.Gcn.dstOf (m ((c : Thread nD τ).loc main_arg1))) := (W4_of_ne m ρ c main_v3 (by decide)).trans (L3_v3 m ρ c)
theorem L4_v27 : W4 m ρ c (Proc.devRef .tc main_v27) = (Cert.Gcn.nrmOf (Cert.Gcn.srcOf (m ((c : Thread nD τ).loc main_arg1))) (Cert.Gcn.dstOf (m ((c : Thread nD τ).loc main_arg1)))) := (W4_of_ne m ρ c main_v27 (by decide)).trans (L3_v27 m ρ c)
theorem L4_arg3 : W4 m ρ c (Proc.devRef .tc main_arg3) = (m ((c : Thread nD τ).loc main_arg3)) := (W4_of_ne m ρ c main_arg3 (by decide)).trans (L3_arg3 m ρ c)
theorem L4_arg4 : W4 m ρ c (Proc.devRef .tc main_arg4) = (m ((c : Thread nD τ).loc main_arg4)) := (W4_of_ne m ρ c main_arg4 (by decide)).trans (L3_arg4 m ρ c)
theorem L4_arg5 : W4 m ρ c (Proc.devRef .tc main_arg5) = (m ((c : Thread nD τ).loc main_arg5)) := (W4_of_ne m ρ c main_arg5 (by decide)).trans (L3_arg5 m ρ c)
theorem L4_arg6 : W4 m ρ c (Proc.devRef .tc main_arg6) = (m ((c : Thread nD τ).loc main_arg6)) := (W4_of_ne m ρ c main_arg6 (by decide)).trans (L3_arg6 m ρ c)
theorem L4_arg7 : W4 m ρ c (Proc.devRef .tc main_arg7) = (m ((c : Thread nD τ).loc main_arg7)) := (W4_of_ne m ρ c main_arg7 (by decide)).trans (L3_arg7 m ρ c)

/-! ## Boundary 5: after the first layer's message passing -/

theorem L5_v41 : W5 m ρ c (Proc.devRef .tc main_v41) = (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) :=
  (host1_v41 (W4 m ρ c)).trans (by rw [L4_v28 m ρ c, L4_v1 m ρ c, L4_v3 m ρ c, L4_v27 m ρ c])
theorem L5_v42 : W5 m ρ c (Proc.devRef .tc main_v42) = shapeCast S1x128 (m ((c : Thread nD τ).loc main_arg3)) Facts₀.shapeCasts_S128_S1x128 :=
  (host1_v42 (W4 m ρ c)).trans (by rw [L4_arg3 m ρ c])
theorem L5_v1 : W5 m ρ c (Proc.devRef .tc main_v1) = (Cert.Gcn.srcOf (m ((c : Thread nD τ).loc main_arg1))) := (host1_keep_v1 (W4 m ρ c)).trans (L4_v1 m ρ c)
theorem L5_v3 : W5 m ρ c (Proc.devRef .tc main_v3) = (Cert.Gcn.dstOf (m ((c : Thread nD τ).loc main_arg1))) := (host1_keep_v3 (W4 m ρ c)).trans (L4_v3 m ρ c)
theorem L5_v27 : W5 m ρ c (Proc.devRef .tc main_v27) = (Cert.Gcn.nrmOf (Cert.Gcn.srcOf (m ((c : Thread nD τ).loc main_arg1))) (Cert.Gcn.dstOf (m ((c : Thread nD τ).loc main_arg1)))) := (host1_keep_v27 (W4 m ρ c)).trans (L4_v27 m ρ c)
theorem L5_arg4 : W5 m ρ c (Proc.devRef .tc main_arg4) = (m ((c : Thread nD τ).loc main_arg4)) := (host1_keep_arg4 (W4 m ρ c)).trans (L4_arg4 m ρ c)
theorem L5_arg5 : W5 m ρ c (Proc.devRef .tc main_arg5) = (m ((c : Thread nD τ).loc main_arg5)) := (host1_keep_arg5 (W4 m ρ c)).trans (L4_arg5 m ρ c)
theorem L5_arg6 : W5 m ρ c (Proc.devRef .tc main_arg6) = (m ((c : Thread nD τ).loc main_arg6)) := (host1_keep_arg6 (W4 m ρ c)).trans (L4_arg6 m ρ c)
theorem L5_arg7 : W5 m ρ c (Proc.devRef .tc main_arg7) = (m ((c : Thread nD τ).loc main_arg7)) := (host1_keep_arg7 (W4 m ρ c)).trans (L4_arg7 m ρ c)

/-! ## Boundary 6: after region 1 (the first layer's bias and maximum with zero) -/

theorem L6_v43 : W6 m ρ c (Proc.devRef .tc main_v43) = (Cert.Gcn.biasRelu128 (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg3))) :=
  (W6_arr m ρ c 2).trans ((region1_value (V5 m ρ) c).trans (by
    rw [show V5 m ρ c main_v41 = _ from L5_v41 m ρ c, show V5 m ρ c main_v42 = _ from L5_v42 m ρ c]
    exact rowBiasRelu128_reshape _ _))
theorem L6_v1 : W6 m ρ c (Proc.devRef .tc main_v1) = (Cert.Gcn.srcOf (m ((c : Thread nD τ).loc main_arg1))) := (W6_of_ne m ρ c main_v1 (by decide)).trans (L5_v1 m ρ c)
theorem L6_v3 : W6 m ρ c (Proc.devRef .tc main_v3) = (Cert.Gcn.dstOf (m ((c : Thread nD τ).loc main_arg1))) := (W6_of_ne m ρ c main_v3 (by decide)).trans (L5_v3 m ρ c)
theorem L6_v27 : W6 m ρ c (Proc.devRef .tc main_v27) = (Cert.Gcn.nrmOf (Cert.Gcn.srcOf (m ((c : Thread nD τ).loc main_arg1))) (Cert.Gcn.dstOf (m ((c : Thread nD τ).loc main_arg1)))) := (W6_of_ne m ρ c main_v27 (by decide)).trans (L5_v27 m ρ c)
theorem L6_arg4 : W6 m ρ c (Proc.devRef .tc main_arg4) = (m ((c : Thread nD τ).loc main_arg4)) := (W6_of_ne m ρ c main_arg4 (by decide)).trans (L5_arg4 m ρ c)
theorem L6_arg5 : W6 m ρ c (Proc.devRef .tc main_arg5) = (m ((c : Thread nD τ).loc main_arg5)) := (W6_of_ne m ρ c main_arg5 (by decide)).trans (L5_arg5 m ρ c)
theorem L6_arg6 : W6 m ρ c (Proc.devRef .tc main_arg6) = (m ((c : Thread nD τ).loc main_arg6)) := (W6_of_ne m ρ c main_arg6 (by decide)).trans (L5_arg6 m ρ c)
theorem L6_arg7 : W6 m ρ c (Proc.devRef .tc main_arg7) = (m ((c : Thread nD τ).loc main_arg7)) := (W6_of_ne m ρ c main_arg7 (by decide)).trans (L5_arg7 m ρ c)

/-! ## Boundary 7: after region 2 (the second layer's product) -/

theorem L7_v44 : W7 m ρ c (Proc.devRef .tc main_v44) = (Cert.Gcn.dense128 (Cert.Gcn.biasRelu128 (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg3))) (m ((c : Thread nD τ).loc main_arg4))) :=
  (W7_arr m ρ c 2).trans ((region2_value (V6 m ρ) c).trans (by rw [show V6 m ρ c main_v43 = _ from L6_v43 m ρ c, show V6 m ρ c main_arg4 = _ from L6_arg4 m ρ c]))
theorem L7_v1 : W7 m ρ c (Proc.devRef .tc main_v1) = (Cert.Gcn.srcOf (m ((c : Thread nD τ).loc main_arg1))) := (W7_of_ne m ρ c main_v1 (by decide)).trans (L6_v1 m ρ c)
theorem L7_v3 : W7 m ρ c (Proc.devRef .tc main_v3) = (Cert.Gcn.dstOf (m ((c : Thread nD τ).loc main_arg1))) := (W7_of_ne m ρ c main_v3 (by decide)).trans (L6_v3 m ρ c)
theorem L7_v27 : W7 m ρ c (Proc.devRef .tc main_v27) = (Cert.Gcn.nrmOf (Cert.Gcn.srcOf (m ((c : Thread nD τ).loc main_arg1))) (Cert.Gcn.dstOf (m ((c : Thread nD τ).loc main_arg1)))) := (W7_of_ne m ρ c main_v27 (by decide)).trans (L6_v27 m ρ c)
theorem L7_arg5 : W7 m ρ c (Proc.devRef .tc main_arg5) = (m ((c : Thread nD τ).loc main_arg5)) := (W7_of_ne m ρ c main_arg5 (by decide)).trans (L6_arg5 m ρ c)
theorem L7_arg6 : W7 m ρ c (Proc.devRef .tc main_arg6) = (m ((c : Thread nD τ).loc main_arg6)) := (W7_of_ne m ρ c main_arg6 (by decide)).trans (L6_arg6 m ρ c)
theorem L7_arg7 : W7 m ρ c (Proc.devRef .tc main_arg7) = (m ((c : Thread nD τ).loc main_arg7)) := (W7_of_ne m ρ c main_arg7 (by decide)).trans (L6_arg7 m ρ c)

/-! ## Boundary 8: after the second layer's message passing -/

theorem L8_v57 : W8 m ρ c (Proc.devRef .tc main_v57) = (Cert.Gcn.agg128 (Cert.Gcn.dense128 (Cert.Gcn.biasRelu128 (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg3))) (m ((c : Thread nD τ).loc main_arg4))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) :=
  (host3_v57 (W7 m ρ c)).trans (by rw [L7_v44 m ρ c, L7_v1 m ρ c, L7_v3 m ρ c, L7_v27 m ρ c])
theorem L8_v58 : W8 m ρ c (Proc.devRef .tc main_v58) = shapeCast S1x128 (m ((c : Thread nD τ).loc main_arg5)) Facts₀.shapeCasts_S128_S1x128 :=
  (host3_v58 (W7 m ρ c)).trans (by rw [L7_arg5 m ρ c])
theorem L8_v1 : W8 m ρ c (Proc.devRef .tc main_v1) = (Cert.Gcn.srcOf (m ((c : Thread nD τ).loc main_arg1))) := (host3_keep_v1 (W7 m ρ c)).trans (L7_v1 m ρ c)
theorem L8_v3 : W8 m ρ c (Proc.devRef .tc main_v3) = (Cert.Gcn.dstOf (m ((c : Thread nD τ).loc main_arg1))) := (host3_keep_v3 (W7 m ρ c)).trans (L7_v3 m ρ c)
theorem L8_v27 : W8 m ρ c (Proc.devRef .tc main_v27) = (Cert.Gcn.nrmOf (Cert.Gcn.srcOf (m ((c : Thread nD τ).loc main_arg1))) (Cert.Gcn.dstOf (m ((c : Thread nD τ).loc main_arg1)))) := (host3_keep_v27 (W7 m ρ c)).trans (L7_v27 m ρ c)
theorem L8_arg6 : W8 m ρ c (Proc.devRef .tc main_arg6) = (m ((c : Thread nD τ).loc main_arg6)) := (host3_keep_arg6 (W7 m ρ c)).trans (L7_arg6 m ρ c)
theorem L8_arg7 : W8 m ρ c (Proc.devRef .tc main_arg7) = (m ((c : Thread nD τ).loc main_arg7)) := (host3_keep_arg7 (W7 m ρ c)).trans (L7_arg7 m ρ c)

/-! ## Boundary 9: after region 3 (the second layer's bias and maximum with zero) -/

theorem L9_v59 : W9 m ρ c (Proc.devRef .tc main_v59) = (Cert.Gcn.biasRelu128 (Cert.Gcn.agg128 (Cert.Gcn.dense128 (Cert.Gcn.biasRelu128 (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg3))) (m ((c : Thread nD τ).loc main_arg4))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg5))) :=
  (W9_arr m ρ c 2).trans ((region3_value (V8 m ρ) c).trans (by
    rw [show V8 m ρ c main_v57 = _ from L8_v57 m ρ c, show V8 m ρ c main_v58 = _ from L8_v58 m ρ c]
    exact rowBiasRelu128_reshape _ _))
theorem L9_v1 : W9 m ρ c (Proc.devRef .tc main_v1) = (Cert.Gcn.srcOf (m ((c : Thread nD τ).loc main_arg1))) := (W9_of_ne m ρ c main_v1 (by decide)).trans (L8_v1 m ρ c)
theorem L9_v3 : W9 m ρ c (Proc.devRef .tc main_v3) = (Cert.Gcn.dstOf (m ((c : Thread nD τ).loc main_arg1))) := (W9_of_ne m ρ c main_v3 (by decide)).trans (L8_v3 m ρ c)
theorem L9_v27 : W9 m ρ c (Proc.devRef .tc main_v27) = (Cert.Gcn.nrmOf (Cert.Gcn.srcOf (m ((c : Thread nD τ).loc main_arg1))) (Cert.Gcn.dstOf (m ((c : Thread nD τ).loc main_arg1)))) := (W9_of_ne m ρ c main_v27 (by decide)).trans (L8_v27 m ρ c)
theorem L9_arg6 : W9 m ρ c (Proc.devRef .tc main_arg6) = (m ((c : Thread nD τ).loc main_arg6)) := (W9_of_ne m ρ c main_arg6 (by decide)).trans (L8_arg6 m ρ c)
theorem L9_arg7 : W9 m ρ c (Proc.devRef .tc main_arg7) = (m ((c : Thread nD τ).loc main_arg7)) := (W9_of_ne m ρ c main_arg7 (by decide)).trans (L8_arg7 m ρ c)

/-! ## Boundary 10: after region 4 (the third layer's product) -/

theorem L10_v60 : W10 m ρ c (Proc.devRef .tc main_v60) = (Cert.Gcn.dense64 (Cert.Gcn.biasRelu128 (Cert.Gcn.agg128 (Cert.Gcn.dense128 (Cert.Gcn.biasRelu128 (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg3))) (m ((c : Thread nD τ).loc main_arg4))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg5))) (m ((c : Thread nD τ).loc main_arg6))) :=
  (W10_arr m ρ c 2).trans ((region4_value (V9 m ρ) c).trans (by rw [show V9 m ρ c main_v59 = _ from L9_v59 m ρ c, show V9 m ρ c main_arg6 = _ from L9_arg6 m ρ c]))
theorem L10_v1 : W10 m ρ c (Proc.devRef .tc main_v1) = (Cert.Gcn.srcOf (m ((c : Thread nD τ).loc main_arg1))) := (W10_of_ne m ρ c main_v1 (by decide)).trans (L9_v1 m ρ c)
theorem L10_v3 : W10 m ρ c (Proc.devRef .tc main_v3) = (Cert.Gcn.dstOf (m ((c : Thread nD τ).loc main_arg1))) := (W10_of_ne m ρ c main_v3 (by decide)).trans (L9_v3 m ρ c)
theorem L10_v27 : W10 m ρ c (Proc.devRef .tc main_v27) = (Cert.Gcn.nrmOf (Cert.Gcn.srcOf (m ((c : Thread nD τ).loc main_arg1))) (Cert.Gcn.dstOf (m ((c : Thread nD τ).loc main_arg1)))) := (W10_of_ne m ρ c main_v27 (by decide)).trans (L9_v27 m ρ c)
theorem L10_arg7 : W10 m ρ c (Proc.devRef .tc main_arg7) = (m ((c : Thread nD τ).loc main_arg7)) := (W10_of_ne m ρ c main_arg7 (by decide)).trans (L9_arg7 m ρ c)

/-! ## Boundary 11: after the third layer's message passing -/

theorem L11_v73 : W11 m ρ c (Proc.devRef .tc main_v73) = (Cert.Gcn.agg64 (Cert.Gcn.dense64 (Cert.Gcn.biasRelu128 (Cert.Gcn.agg128 (Cert.Gcn.dense128 (Cert.Gcn.biasRelu128 (Cert.Gcn.agg128 (Cert.Gcn.dense128 (m ((c : Thread nD τ).loc main_arg0)) (m ((c : Thread nD τ).loc main_arg2))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg3))) (m ((c : Thread nD τ).loc main_arg4))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) (m ((c : Thread nD τ).loc main_arg5))) (m ((c : Thread nD τ).loc main_arg6))) (Cert.Gcn.srcOf (m ((c : Thread nD τ).loc main_arg1))) (Cert.Gcn.dstOf (m ((c : Thread nD τ).loc main_arg1))) (Cert.Gcn.nrmOf (Cert.Gcn.srcOf (m ((c : Thread nD τ).loc main_arg1))) (Cert.Gcn.dstOf (m ((c : Thread nD τ).loc main_arg1))))) :=
  (host5_v73 (W10 m ρ c)).trans (by rw [L10_v60 m ρ c, L10_v1 m ρ c, L10_v3 m ρ c, L10_v27 m ρ c])
theorem L11_v74 : W11 m ρ c (Proc.devRef .tc main_v74) = shapeCast S1x64 (m ((c : Thread nD τ).loc main_arg7)) Facts₀.shapeCasts_S64_S1x64 :=
  (host5_v74 (W10 m ρ c)).trans (by rw [L10_arg7 m ρ c])

/-! ## Boundary 12: after region 5 (the third layer's bias): the result -/

theorem L12_v75 : W12 m ρ c (Proc.devRef .tc main_v75)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((region5_value (V11 m ρ) c).trans (by
    rw [show V11 m ρ c main_v73 = _ from L11_v73 m ρ c, show V11 m ρ c main_v74 = _ from L11_v74 m ρ c]
    exact rowBias64_reshape _ _))

/-! ## The run -/

/-- Every weakly fair execution of the kernel's program terminates, nothing faulting, with the result array at the network
    of the arguments' launch contents, and the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v75)
        = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (L12_v75 m ρ c), (h c).2⟩)
    (Cert.KernelIdeal.Named.run_named (F := Ideal) m ρ)

end Cert.KernelIdeal.Assemble

end
-- ==== Proof.lean ====
/-
  The certificate of a three-layer graph convolution: a Pallas program (per layer: a dense product x·W on the matrix unit over
  row blocks, the message passing left to the host, then a pointwise bias kernel with the maximum with zero in the first two
  layers) against the plain reference (per layer: one whole contraction, the same message passing, the bias broadcast and
  added, the maximum with a broadcast zero).

  Over the extended reals the two are ONE function of the eight arguments, `Cert.Gcn.gcn` (Proof/Spec.lean): the message
  passing (gather at the edges' sources, scale by dinv[src]·dinv[dst], scatter-sum at the edges' targets) is the same
  composition of host operations in both programs and is carried as such; a block product into a zero accumulator and the
  whole contraction are both Σₖ x[r,k]·w[k,j] (a change of float format is the identity, 0 + s = s); the bias read through a
  one-row window and the bias broadcast twice are both b[j] at column j. No law that needs finite values is used, so the
  precondition is never opened.

  Frames: the kernel program's two frames are the generated ones; the reference's is its run with the result dropped.
  Nothing was rewritten by the ideal pass, so `preserves` is `True`.
-/
import proofs.«416586_j33998961116038_2_alg».proof.Defs
import proofs.«416586_j33998961116038_2_alg».proof.Proof.Gen.Kernel
import proofs.«416586_j33998961116038_2_alg».proof.Proof.Gen.Kernel.Frame
import proofs.«416586_j33998961116038_2_alg».proof.Proof.Gen.KernelIdeal
import proofs.«416586_j33998961116038_2_alg».proof.Proof.Gen.KernelIdeal.Frame
import proofs.«416586_j33998961116038_2_alg».proof.Proof.Gen.ReferenceIdeal
import proofs.«416586_j33998961116038_2_alg».proof.Proof.Gen.Pre_finite_inputs
import proofs.«416586_j33998961116038_2_alg».proof.Proof.RefRun
import proofs.«416586_j33998961116038_2_alg».proof.Proof.RefValue
import proofs.«416586_j33998961116038_2_alg».proof.Proof.Assemble

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the network of the arguments; the arguments agree. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Assemble.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
